-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1047552 : Shape := ⟨1, ![1047552]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1047552 : S_.BroadcastsInDim S1047552 (![] : Fin 0 → Fin S1047552.rank)
  reducesTo_S1047552_S_d0 : S1047552.ReducesTo [0] S_

variable [Facts]

def fn_part2 {F : FTy → Type} [FloatOps F] (main_arg6 : IVec S1047552 32) (main_v30 : IVec S_ 1) (main_v32 : IVec S1047552 1) (main_c_12 : IVec S_ 32) : IVec S_ 1 :=
  let main_v33 : IVec S1047552 32 := broadcastInDim S1047552 ![] bcast_S_S1047552 main_c_12
  let main_v34 : IVec S1047552 1 := cmpi .slt main_arg6 main_v33
  let main_v35 : IVec S1047552 1 := andi main_v32 main_v34
  let main_c_13 : IVec S_ 1 := constantI S_ 1 1#1
  let main_v36 : IVec S_ 1 := (fun x v => Host.reduce IntOp.andi x v reducesTo_S1047552_S_d0 h_S_) main_v35 main_c_13
  let main_v37 : IVec S_ 1 := andi main_v30 main_v36
  main_v37

def fn_part1 {F : FTy → Type} [FloatOps F] (main_arg4 : FVec F S64 .f32) (main_arg5 : IVec S1047552 32) (main_arg6 : IVec S1047552 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S1047552 32 := broadcastInDim S1047552 ![] bcast_S_S1047552 main_c_8
  let main_v25 : IVec S1047552 1 := cmpi .sge main_arg5 main_v24
  let main_c_9 : IVec S_ 32 := constantI S_ 32 1024#32
  let main_v26 : IVec S1047552 32 := broadcastInDim S1047552 ![] bcast_S_S1047552 main_c_9
  let main_v27 : IVec S1047552 1 := cmpi .slt main_arg5 main_v26
  let main_v28 : IVec S1047552 1 := andi main_v25 main_v27
  let main_c_10 : IVec S_ 1 := constantI S_ 1 1#1
  let main_v29 : IVec S_ 1 := (fun x v => Host.reduce IntOp.andi x v reducesTo_S1047552_S_d0 h_S_) main_v28 main_c_10
  let main_v30 : IVec S_ 1 := andi main_v23 main_v29
  let main_c_11 : IVec S_ 32 := constantI S_ 32 0#32
  let main_v31 : IVec S1047552 32 := broadcastInDim S1047552 ![] bcast_S_S1047552 main_c_11
  let main_v32 : IVec S1047552 1 := cmpi .sge main_arg6 main_v31
  let main_c_12 : IVec S_ 32 := constantI S_ 32 1024#32
  fn_part2 (F := F) main_arg6 main_v30 main_v32 main_c_12

def fn {F : FTy → Type} [FloatOps F] (main_arg0 : FVec F S1024x64 .f32) (main_arg1 : FVec F S64x128 .f32) (main_arg2 : FVec F S128 .f32) (main_arg3 : FVec F S128x64 .f32) (main_arg4 : FVec F S64 .f32) (main_arg5 : IVec S1047552 32) (main_arg6 : IVec S1047552 32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S1024x64 : Shape := ⟨2, ![1024, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1047552 : Shape := ⟨1, ![1047552]⟩
abbrev S1024 : Shape := ⟨1, ![1024]⟩
abbrev S1048576 : Shape := ⟨1, ![1048576]⟩
abbrev S_ : Shape := ⟨0, ![]⟩
abbrev S1048576x1 : Shape := ⟨2, ![1048576, 1]⟩
abbrev S1024x1024 : Shape := ⟨2, ![1024, 1024]⟩
abbrev S64x1024 : Shape := ⟨2, ![64, 1024]⟩
abbrev S128x1 : Shape := ⟨2, ![128, 1]⟩
abbrev S64x1 : Shape := ⟨2, ![64, 1]⟩
abbrev S128x1024 : Shape := ⟨2, ![128, 1024]⟩

abbrev nBuf : Space → Nat
  | .hbm => 52
  | .vmem => 7
  | .smem => 0
  | _ => 0

abbrev bufTy : (tb : Table) → Fin (tcTables nBuf tb) → BufTy
  | .hbm, ⟨0, _⟩ => ⟨S1024x64, .f32⟩
  | .hbm, ⟨1, _⟩ => ⟨S64x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1047552, .i32⟩
  | .hbm, ⟨6, _⟩ => ⟨S1047552, .i32⟩
  | .hbm, ⟨7, _⟩ => ⟨S1024, .i32⟩
  | .hbm, ⟨8, _⟩ => ⟨S1048576, .i32⟩
  | .hbm, ⟨9, _⟩ => ⟨S1048576, .i32⟩
  | .hbm, ⟨10, _⟩ => ⟨S_, .f32⟩
  | .hbm, ⟨11, _⟩ => ⟨S1048576, .f32⟩
  | .hbm, ⟨12, _⟩ => ⟨S_, .f32⟩
  | .hbm, ⟨13, _⟩ => ⟨S1024, .f32⟩
  | .hbm, ⟨14, _⟩ => ⟨S1048576x1, .i32⟩
  | .hbm, ⟨15, _⟩ => ⟨S1024, .f32⟩
  | .hbm, ⟨16, _⟩ => ⟨S1024, .f32⟩
  | .hbm, ⟨17, _⟩ => ⟨S_, .i32⟩
  | .hbm, ⟨18, _⟩ => ⟨S1048576, .i32⟩
  | .hbm, ⟨19, _⟩ => ⟨S1048576, .i1⟩
  | .hbm, ⟨20, _⟩ => ⟨S_, .i32⟩
  | .hbm, ⟨21, _⟩ => ⟨S1048576, .i32⟩
  | .hbm, ⟨22, _⟩ => ⟨S1048576, .i32⟩
  | .hbm, ⟨23, _⟩ => ⟨S1048576, .i32⟩
  | .hbm, ⟨24, _⟩ => ⟨S1048576x1, .i32⟩
  | .hbm, ⟨25, _⟩ => ⟨S1048576, .f32⟩
  | .hbm, ⟨26, _⟩ => ⟨S_, .i32⟩
  | .hbm, ⟨27, _⟩ => ⟨S1048576, .i32⟩
  | .hbm, ⟨28, _⟩ => ⟨S1048576, .i1⟩
  | .hbm, ⟨29, _⟩ => ⟨S_, .i32⟩
  | .hbm, ⟨30, _⟩ => ⟨S1048576, .i32⟩
  | .hbm, ⟨31, _⟩ => ⟨S1048576, .i32⟩
  | .hbm, ⟨32, _⟩ => ⟨S1048576, .i32⟩
  | .hbm, ⟨33, _⟩ => ⟨S1048576x1, .i32⟩
  | .hbm, ⟨34, _⟩ => ⟨S1048576, .f32⟩
  | .hbm, ⟨35, _⟩ => ⟨S1048576, .f32⟩
  | .hbm, ⟨36, _⟩ => ⟨S_, .i32⟩
  | .hbm, ⟨37, _⟩ => ⟨S1048576, .i32⟩
  | .hbm, ⟨38, _⟩ => ⟨S1048576, .i32⟩
  | .hbm, ⟨39, _⟩ => ⟨S1048576, .i32⟩
  | .hbm, ⟨40, _⟩ => ⟨S_, .f32⟩
  | .hbm, ⟨41, _⟩ => ⟨S1048576, .f32⟩
  | .hbm, ⟨42, _⟩ => ⟨S1048576x1, .i32⟩
  | .hbm, ⟨43, _⟩ => ⟨S1048576, .f32⟩
  | .hbm, ⟨44, _⟩ => ⟨S1024x1024, .f32⟩
  | .hbm, ⟨45, _⟩ => ⟨S1024x1024, .bf16⟩
  | .hbm, ⟨46, _⟩ => ⟨S64x1024, .f32⟩
  | .hbm, ⟨47, _⟩ => ⟨S128x64, .f32⟩
  | .hbm, ⟨48, _⟩ => ⟨S64x128, .f32⟩
  | .hbm, ⟨49, _⟩ => ⟨S128x1, .f32⟩
  | .hbm, ⟨50, _⟩ => ⟨S64x1, .f32⟩
  | .hbm, ⟨51, _⟩ => ⟨S1024, .f32⟩
  | .local _ .vmem, ⟨0, _⟩ => ⟨S1024x1024, .bf16⟩
  | .local _ .vmem, ⟨1, _⟩ => ⟨S64x1024, .f32⟩
  | .local _ .vmem, ⟨2, _⟩ => ⟨S128x64, .f32⟩
  | .local _ .vmem, ⟨3, _⟩ => ⟨S128x1, .f32⟩
  | .local _ .vmem, ⟨4, _⟩ => ⟨S64x128, .f32⟩
  | .local _ .vmem, ⟨5, _⟩ => ⟨S64x1, .f32⟩
  | .local _ .vmem, ⟨6, _⟩ => ⟨S1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  concatenates_S1047552_S1024_S1048576_d0 : Shape.Concatenates [S1047552, S1024] S1048576 0
  bcast_S_S1048576 : S_.BroadcastsInDim S1048576 (![] : Fin 0 → Fin S1048576.rank)
  bcast_S_S1024 : S_.BroadcastsInDim S1024 (![] : Fin 0 → Fin S1024.rank)
  bcast_S1048576_S1048576x1_0 : S1048576.BroadcastsInDim S1048576x1 (![0] : Fin 1 → Fin S1048576x1.rank)
  shapeCasts_S1048576_S1024x1024 : S1048576.ShapeCasts S1024x1024
  bitsLt_bf16_f32 : FTy.bits .bf16 < FTy.bits .f32
  transposes_S1024x64_S64x1024_1_0 : S1024x64.Transposes [1, 0] S64x1024
  transposes_S64x128_S128x64_1_0 : S64x128.Transposes [1, 0] S128x64
  transposes_S128x64_S64x128_1_0 : S128x64.Transposes [1, 0] S64x128
  shapeCasts_S128_S128x1 : S128.ShapeCasts S128x1
  shapeCasts_S64_S64x1 : S64.ShapeCasts S64x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1024 : S128x1.Broadcasts S128x1024
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  reduces_S64x1024_S1024 : S64x1024.Reduces [0] S1024
  inb_S1024_S1024_0 : ∀ a, (![0] : Fin 1 → Nat) a + S1024.size a ≤ S1024.size a
  h_S1024 : 0 < S1024.numel
  scatter_S1024_S1048576x1_S1048576_n_0_0_1_wf : ScatterDims.WF S1024 S1048576x1 S1048576 [] [0] [0] 1
  gather_S1024_S1048576x1_S1048576_n_0_n_n_0_1_1_wf : GatherDims.WF S1024 S1048576x1 S1048576 [] [0] [] [0] [] 1 ![1]
  scatter_S1048576_S1048576x1_S1048576_n_0_0_1_wf : ScatterDims.WF S1048576 S1048576x1 S1048576 [] [0] [0] 1
  dot_S128x64_S64x1024_S128x1024_1_0_0_1_n_n_wf : DotDims.WF S128x64 S64x1024 S128x1024 [1] [0] [0] [1] [] []
  dot_S128x1024_S1024x1024_S128x1024_1_0_0_1_n_n_wf : DotDims.WF S128x1024 S1024x1024 S128x1024 [1] [0] [0] [1] [] []
  dot_S64x128_S128x1024_S64x1024_1_0_0_1_n_n_wf : DotDims.WF S64x128 S128x1024 S64x1024 [1] [0] [0] [1] [] []
  dot_S64x1024_S1024x1024_S64x1024_1_0_0_1_n_n_wf : DotDims.WF S64x1024 S1024x1024 S64x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .bf16 = 32 ∨ (Rect.block (s := S1024x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)

variable [Facts₀]

def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def gather_S1024_S1048576x1_S1048576_n_0_n_n_0_1_1 : GatherDims S1024 S1048576x1 S1048576 where
  offsetDims := []
  collapsedSliceDims := [0]
  operandBatchingDims := []
  startIndicesBatchingDims := []
  startIndexMap := [0]
  indexVectorDim := 1
  sliceSizes := ![1]
  wf := gather_S1024_S1048576x1_S1048576_n_0_n_n_0_1_1_wf
def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def dot_S128x64_S64x1024_S128x1024_1_0_0_1_n_n : DotDims S128x64 S64x1024 S128x1024 where
  lhsContracting := [1]
  rhsContracting := [0]
  lhsNonContracting := [0]
  rhsNonContracting := [1]
  lhsBatch := []
  rhsBatch := []
  wf := dot_S128x64_S64x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev win0_0 : Pipeline.Window sig grid0 :=
  Pipeline.Window.ofSpec (Memref.whole main_v30) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v31) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1024.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x64 : Shape := ⟨2, ![1024, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1047552 : Shape := ⟨1, ![1047552]⟩
abbrev S1024x128 : Shape := ⟨2, ![1024, 128]⟩
abbrev S1024 : Shape := ⟨1, ![1024]⟩
abbrev S1048576 : Shape := ⟨1, ![1048576]⟩
abbrev S_ : Shape := ⟨0, ![]⟩
abbrev S1048576x1 : Shape := ⟨2, ![1048576, 1]⟩
abbrev S1048576x128 : Shape := ⟨2, ![1048576, 128]⟩
abbrev S1x128 : Shape := ⟨2, ![1, 128]⟩
abbrev S1048576x64 : Shape := ⟨2, ![1048576, 64]⟩
abbrev S1x64 : Shape := ⟨2, ![1, 64]⟩

abbrev nBuf : Space → Nat
  | .hbm => 116
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S64x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1047552, .i32⟩
  | .hbm, ⟨6, _⟩ => ⟨S1047552, .i32⟩
  | .hbm, ⟨7, _⟩ => ⟨S1024x128, .f32⟩
  | .hbm, ⟨8, _⟩ => ⟨S1024, .i32⟩
  | .hbm, ⟨9, _⟩ => ⟨S1048576, .i32⟩
  | .hbm, ⟨10, _⟩ => ⟨S1048576, .i32⟩
  | .hbm, ⟨11, _⟩ => ⟨S_, .f32⟩
  | .hbm, ⟨12, _⟩ => ⟨S1048576, .f32⟩
  | .hbm, ⟨13, _⟩ => ⟨S_, .f32⟩
  | .hbm, ⟨14, _⟩ => ⟨S1024, .f32⟩
  | .hbm, ⟨15, _⟩ => ⟨S1048576x1, .i32⟩
  | .hbm, ⟨16, _⟩ => ⟨S1024, .f32⟩
  | .hbm, ⟨17, _⟩ => ⟨S1024, .f32⟩
  | .hbm, ⟨18, _⟩ => ⟨S_, .i32⟩
  | .hbm, ⟨19, _⟩ => ⟨S1048576, .i32⟩
  | .hbm, ⟨20, _⟩ => ⟨S1048576, .i1⟩
  | .hbm, ⟨21, _⟩ => ⟨S_, .i32⟩
  | .hbm, ⟨22, _⟩ => ⟨S1048576, .i32⟩
  | .hbm, ⟨23, _⟩ => ⟨S1048576, .i32⟩
  | .hbm, ⟨24, _⟩ => ⟨S1048576, .i32⟩
  | .hbm, ⟨25, _⟩ => ⟨S1048576x1, .i32⟩
  | .hbm, ⟨26, _⟩ => ⟨S1048576, .f32⟩
  | .hbm, ⟨27, _⟩ => ⟨S_, .i32⟩
  | .hbm, ⟨28, _⟩ => ⟨S1048576, .i32⟩
  | .hbm, ⟨29, _⟩ => ⟨S1048576, .i1⟩
  | .hbm, ⟨30, _⟩ => ⟨S_, .i32⟩
  | .hbm, ⟨31, _⟩ => ⟨S1048576, .i32⟩
  | .hbm, ⟨32, _⟩ => ⟨S1048576, .i32⟩
  | .hbm, ⟨33, _⟩ => ⟨S1048576, .i32⟩
  | .hbm, ⟨34, _⟩ => ⟨S1048576x1, .i32⟩
  | .hbm, ⟨35, _⟩ => ⟨S1048576, .f32⟩
  | .hbm, ⟨36, _⟩ => ⟨S1048576, .f32⟩
  | .hbm, ⟨37, _⟩ => ⟨S_, .i32⟩
  | .hbm, ⟨38, _⟩ => ⟨S1048576, .i32⟩
  | .hbm, ⟨39, _⟩ => ⟨S1048576, .i1⟩
  | .hbm, ⟨40, _⟩ => ⟨S_, .i32⟩
  | .hbm, ⟨41, _⟩ => ⟨S1048576, .i32⟩
  | .hbm, ⟨42, _⟩ => ⟨S1048576, .i32⟩
  | .hbm, ⟨43, _⟩ => ⟨S1048576, .i32⟩
  | .hbm, ⟨44, _⟩ => ⟨S1048576x1, .i32⟩
  | .hbm, ⟨45, _⟩ => ⟨S1048576x128, .f32⟩
  | .hbm, ⟨46, _⟩ => ⟨S1048576x1, .f32⟩
  | .hbm, ⟨47, _⟩ => ⟨S1048576x128, .f32⟩
  | .hbm, ⟨48, _⟩ => ⟨S1048576x128, .f32⟩
  | .hbm, ⟨49, _⟩ => ⟨S_, .f32⟩
  | .hbm, ⟨50, _⟩ => ⟨S1024x128, .f32⟩
  | .hbm, ⟨51, _⟩ => ⟨S1048576x1, .i32⟩
  | .hbm, ⟨52, _⟩ => ⟨S1024x128, .f32⟩
  | .hbm, ⟨53, _⟩ => ⟨S1x128, .f32⟩
  | .hbm, ⟨54, _⟩ => ⟨S1024x128, .f32⟩
  | .hbm, ⟨55, _⟩ => ⟨S1024x128, .f32⟩
  | .hbm, ⟨56, _⟩ => ⟨S_, .f32⟩
  | .hbm, ⟨57, _⟩ => ⟨S1024x128, .f32⟩
  | .hbm, ⟨58, _⟩ => ⟨S1024x128, .f32⟩
  | .hbm, ⟨59, _⟩ => ⟨S1024x64, .f32⟩
  | .hbm, ⟨60, _⟩ => ⟨S1024, .i32⟩
  | .hbm, ⟨61, _⟩ => ⟨S1048576, .i32⟩
  | .hbm, ⟨62, _⟩ => ⟨S1048576, .i32⟩
  | .hbm, ⟨63, _⟩ => ⟨S_, .f32⟩
  | .hbm, ⟨64, _⟩ => ⟨S1048576, .f32⟩
  | .hbm, ⟨65, _⟩ => ⟨S_, .f32⟩
  | .hbm, ⟨66, _⟩ => ⟨S1024, .f32⟩
  | .hbm, ⟨67, _⟩ => ⟨S1048576x1, .i32⟩
  | .hbm, ⟨68, _⟩ => ⟨S1024, .f32⟩
  | .hbm, ⟨69, _⟩ => ⟨S1024, .f32⟩
  | .hbm, ⟨70, _⟩ => ⟨S_, .i32⟩
  | .hbm, ⟨71, _⟩ => ⟨S1048576, .i32⟩
  | .hbm, ⟨72, _⟩ => ⟨S1048576, .i1⟩
  | .hbm, ⟨73, _⟩ => ⟨S_, .i32⟩
  | .hbm, ⟨74, _⟩ => ⟨S1048576, .i32⟩
  | .hbm, ⟨75, _⟩ => ⟨S1048576, .i32⟩
  | .hbm, ⟨76, _⟩ => ⟨S1048576, .i32⟩
  | .hbm, ⟨77, _⟩ => ⟨S1048576x1, .i32⟩
  | .hbm, ⟨78, _⟩ => ⟨S1048576, .f32⟩
  | .hbm, ⟨79, _⟩ => ⟨S_, .i32⟩
  | .hbm, ⟨80, _⟩ => ⟨S1048576, .i32⟩
  | .hbm, ⟨81, _⟩ => ⟨S1048576, .i1⟩
  | .hbm, ⟨82, _⟩ => ⟨S_, .i32⟩
  | .hbm, ⟨83, _⟩ => ⟨S1048576, .i32⟩
  | .hbm, ⟨84, _⟩ => ⟨S1048576, .i32⟩
  | .hbm, ⟨85, _⟩ => ⟨S1048576, .i32⟩
  | .hbm, ⟨86, _⟩ => ⟨S1048576x1, .i32⟩
  | .hbm, ⟨87, _⟩ => ⟨S1048576, .f32⟩
  | .hbm, ⟨88, _⟩ => ⟨S1048576, .f32⟩
  | .hbm, ⟨89, _⟩ => ⟨S_, .i32⟩
  | .hbm, ⟨90, _⟩ => ⟨S1048576, .i32⟩
  | .hbm, ⟨91, _⟩ => ⟨S1048576, .i1⟩
  | .hbm, ⟨92, _⟩ => ⟨S_, .i32⟩
  | .hbm, ⟨93, _⟩ => ⟨S1048576, .i32⟩
  | .hbm, ⟨94, _⟩ => ⟨S1048576, .i32⟩
  | .hbm, ⟨95, _⟩ => ⟨S1048576, .i32⟩
  | .hbm, ⟨96, _⟩ => ⟨S1048576x1, .i32⟩
  | .hbm, ⟨97, _⟩ => ⟨S1048576x64, .f32⟩
  | .hbm, ⟨98, _⟩ => ⟨S1048576x1, .f32⟩
  | .hbm, ⟨99, _⟩ => ⟨S1048576x64, .f32⟩
  | .hbm, ⟨100, _⟩ => ⟨S1048576x64, .f32⟩
  | .hbm, ⟨101, _⟩ => ⟨S_, .f32⟩
  | .hbm, ⟨102, _⟩ => ⟨S1024x64, .f32⟩
  | .hbm, ⟨103, _⟩ => ⟨S1048576x1, .i32⟩
  | .hbm, ⟨104, _⟩ => ⟨S1024x64, .f32⟩
  | .hbm, ⟨105, _⟩ => ⟨S1x64, .f32⟩
  | .hbm, ⟨106, _⟩ => ⟨S1024x64, .f32⟩
  | .hbm, ⟨107, _⟩ => ⟨S1024x64, .f32⟩
  | .hbm, ⟨108, _⟩ => ⟨S_, .f32⟩
  | .hbm, ⟨109, _⟩ => ⟨S1024x64, .f32⟩
  | .hbm, ⟨110, _⟩ => ⟨S1024x64, .f32⟩
  | .hbm, ⟨111, _⟩ => ⟨S_, .f32⟩
  | .hbm, ⟨112, _⟩ => ⟨S1024, .f32⟩
  | .hbm, ⟨113, _⟩ => ⟨S_, .f32⟩
  | .hbm, ⟨114, _⟩ => ⟨S1024, .f32⟩
  | .hbm, ⟨115, _⟩ => ⟨S1024, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_c_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_call1_cst : Ref sig .tc := ⟨.hbm, 108, rfl⟩
abbrev main_call1_v0 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  concatenates_S1047552_S1024_S1048576_d0 : Shape.Concatenates [S1047552, S1024] S1048576 0
  bcast_S_S1048576 : S_.BroadcastsInDim S1048576 (![] : Fin 0 → Fin S1048576.rank)
  bcast_S_S1024 : S_.BroadcastsInDim S1024 (![] : Fin 0 → Fin S1024.rank)
  bcast_S1048576_S1048576x1_0 : S1048576.BroadcastsInDim S1048576x1 (![0] : Fin 1 → Fin S1048576x1.rank)
  bcast_S1048576x1_S1048576x128_0_1 : S1048576x1.BroadcastsInDim S1048576x128 (![0, 1] : Fin 2 → Fin S1048576x128.rank)
  bcast_S_S1024x128 : S_.BroadcastsInDim S1024x128 (![] : Fin 0 → Fin S1024x128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S1048576x1_S1048576x64_0_1 : S1048576x1.BroadcastsInDim S1048576x64 (![0, 1] : Fin 2 → Fin S1048576x64.rank)
  bcast_S_S1024x64 : S_.BroadcastsInDim S1024x64 (![] : Fin 0 → Fin S1024x64.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  reducesTo_S1024x64_S1024_d1 : S1024x64.ReducesTo [1] S1024
  h_S_ : 0 < S_.numel
  dot_S1024x64_S64x128_S1024x128_1_0_0_1_n_n_wf : DotDims.WF S1024x64 S64x128 S1024x128 [1] [0] [0] [1] [] []
  scatter_S1024_S1048576x1_S1048576_n_0_0_1_wf : ScatterDims.WF S1024 S1048576x1 S1048576 [] [0] [0] 1
  gather_S1024_S1048576x1_S1048576_n_0_n_n_0_1_1_wf : GatherDims.WF S1024 S1048576x1 S1048576 [] [0] [] [0] [] 1 ![1]
  gather_S1024x128_S1048576x1_S1048576x128_1_0_n_n_0_1_1128_wf : GatherDims.WF S1024x128 S1048576x1 S1048576x128 [1] [0] [] [0] [] 1 ![1, 128]
  scatter_S1024x128_S1048576x1_S1048576x128_1_0_0_1_wf : ScatterDims.WF S1024x128 S1048576x1 S1048576x128 [1] [0] [0] 1
  dot_S1024x128_S128x64_S1024x64_1_0_0_1_n_n_wf : DotDims.WF S1024x128 S128x64 S1024x64 [1] [0] [0] [1] [] []
  gather_S1024x64_S1048576x1_S1048576x64_1_0_n_n_0_1_164_wf : GatherDims.WF S1024x64 S1048576x1 S1048576x64 [1] [0] [] [0] [] 1 ![1, 64]
  scatter_S1024x64_S1048576x1_S1048576x64_1_0_0_1_wf : ScatterDims.WF S1024x64 S1048576x1 S1048576x64 [1] [0] [0] 1

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def gather_S1024_S1048576x1_S1048576_n_0_n_n_0_1_1 : GatherDims S1024 S1048576x1 S1048576 where
  offsetDims := []
  collapsedSliceDims := [0]
  operandBatchingDims := []
  startIndicesBatchingDims := []
  startIndexMap := [0]
  indexVectorDim := 1
  sliceSizes := ![1]
  wf := gather_S1024_S1048576x1_S1048576_n_0_n_n_0_1_1_wf
def gather_S1024x128_S1048576x1_S1048576x128_1_0_n_n_0_1_1128 : GatherDims S1024x128 S1048576x1 S1048576x128 where
  offsetDims := [1]
  collapsedSliceDims := [0]
  operandBatchingDims := []
  startIndicesBatchingDims := []
  startIndexMap := [0]
  indexVectorDim := 1
  sliceSizes := ![1, 128]
  wf := gather_S1024x128_S1048576x1_S1048576x128_1_0_n_n_0_1_1128_wf
def scatter_S1024x128_S1048576x1_S1048576x128_1_0_0_1 : ScatterDims S1024x128 S1048576x1 S1048576x128 where
  updateWindowDims := [1]
  insertedWindowDims := [0]
  scatterDimsToOperandDims := [0]
  indexVectorDim := 1
  wf := scatter_S1024x128_S1048576x1_S1048576x128_1_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def gather_S1024x64_S1048576x1_S1048576x64_1_0_n_n_0_1_164 : GatherDims S1024x64 S1048576x1 S1048576x64 where
  offsetDims := [1]
  collapsedSliceDims := [0]
  operandBatchingDims := []
  startIndicesBatchingDims := []
  startIndexMap := [0]
  indexVectorDim := 1
  sliceSizes := ![1, 64]
  wf := gather_S1024x64_S1048576x1_S1048576x64_1_0_n_n_0_1_164_wf
def scatter_S1024x64_S1048576x1_S1048576x64_1_0_0_1 : ScatterDims S1024x64 S1048576x1 S1048576x64 where
  updateWindowDims := [1]
  insertedWindowDims := [0]
  scatterDimsToOperandDims := [0]
  indexVectorDim := 1
  wf := scatter_S1024x64_S1048576x1_S1048576x64_1_0_0_1_wf

class Facts : Prop extends Facts₀ where

variable [Facts]
-- ==== Proof.Spec.lean ====
/-
  The mathematics both programs compute, stated once over plain index types.

  A two-layer graph convolution on 1024 nodes.  The edge list has E = 1048576 entries (the given
  edges followed by one self loop per node); edge e goes from node s e to node d e and carries the
  weight w e.  One layer sends node features g to  n, f ↦ Σ_{e : d e = n} g (s e) f · w e , adds a
  bias and rectifies; the result is the mean over the 64 output features of the second layer.

  The kernel reads the edges through the dense matrix  adj a b = Σ_{e : s e = a ∧ d e = b} w e  and
  keeps every feature array transposed; the reference gathers and scatters edge by edge.  The two
  forms are written down here (kOut, rOut); that they agree is Proof/Bridge.lean.
-/
import Idealize.ShloMosaic.PureOps.Ideal
import Idealize.ShloMosaic.Lib.ValueIdx

noncomputable section

namespace Cert.Gcn

open Idealize.ShloMosaic

/-- The number of edges once the self loops are appended. -/
abbrev E : Nat := 1048576

/-- The dense weighted adjacency: entry (a, b) sums the weights of the edges from a to b. -/
def adj (s d : Fin E → Fin 1024) (w : Fin E → EReal) (a b : Fin 1024) : EReal :=
  ∑ e : Fin E, if s e = a ∧ d e = b then w e else 0

section Kernel

variable (M : Fin 1024 → Fin 1024 → EReal) (x : Fin 1024 → Fin 64 → EReal) (W1 : Fin 64 → Fin 128 → EReal)
  (b1 : Fin 128 → EReal) (W2 : Fin 128 → Fin 64 → EReal) (b2 : Fin 64 → EReal) (c : EReal)

/-- First linear map, transposed: feature f of node a. -/
def kLin1 (f : Fin 128) (a : Fin 1024) : EReal := ∑ k : Fin 64, W1 k f * x a k

/-- First layer through the dense matrix, biased and rectified. -/
def kAct1 (f : Fin 128) (n : Fin 1024) : EReal := max ((∑ a : Fin 1024, kLin1 x W1 f a * M a n) + b1 f) 0

/-- Second linear map, transposed. -/
def kLin2 (o : Fin 64) (a : Fin 1024) : EReal := ∑ f : Fin 128, W2 f o * kAct1 M x W1 b1 f a

/-- Second layer through the dense matrix, biased and rectified. -/
def kAct2 (o : Fin 64) (n : Fin 1024) : EReal := max ((∑ a : Fin 1024, kLin2 M x W1 b1 W2 o a * M a n) + b2 o) 0

/-- The result at node n: the sum over the output features times the constant c. -/
def kOut (n : Fin 1024) : EReal := (∑ o : Fin 64, kAct2 M x W1 b1 W2 b2 o n) * c

end Kernel

section Reference

variable (s d : Fin E → Fin 1024) (w : Fin E → EReal) (x : Fin 1024 → Fin 64 → EReal) (W1 : Fin 64 → Fin 128 → EReal)
  (b1 : Fin 128 → EReal) (W2 : Fin 128 → Fin 64 → EReal) (b2 : Fin 64 → EReal) (c64 : EReal)

/-- First linear map: feature f of node a. -/
def rLin1 (a : Fin 1024) (f : Fin 128) : EReal := ∑ k : Fin 64, x a k * W1 k f

/-- First layer edge by edge, biased and rectified. -/
def rAct1 (n : Fin 1024) (f : Fin 128) : EReal :=
  max ((0 + ∑ e : Fin E, if d e = n then rLin1 x W1 (s e) f * w e else 0) + b1 f) 0

/-- Second linear map. -/
def rLin2 (a : Fin 1024) (o : Fin 64) : EReal := ∑ f : Fin 128, rAct1 s d w x W1 b1 a f * W2 f o

/-- Second layer edge by edge, biased and rectified. -/
def rAct2 (n : Fin 1024) (o : Fin 64) : EReal :=
  max ((0 + ∑ e : Fin E, if d e = n then rLin2 s d w x W1 b1 W2 (s e) o * w e else 0) + b2 o) 0

/-- The result at node n: the sum over the output features divided by the constant c64. -/
def rOut (n : Fin 1024) : EReal := Ideal.div (0 + ∑ o : Fin 64, rAct2 s d w x W1 b1 W2 b2 n o) c64

end Reference

end Cert.Gcn

end
-- ==== Proof.Bridge.lean ====
/-
  The dense form and the edge-by-edge form of the two-layer graph convolution agree.

  The one law used: for weights w e ≥ 0 and any extended reals g a,
      Σ_a g a · (Σ_{e : s e = a ∧ d e = n} w e)  =  Σ_{e : d e = n} g (s e) · w e .
  A product distributes over a sum of NON-NEGATIVE extended reals whatever the other factor is (so no
  finiteness of the features is needed), and the double sum over (a, e) is then taken edge first: for each
  edge only a = s e contributes.  Everything else is the same operation on both sides up to the order of
  the two factors of a product, and x / 64 = x · (1/64) for the two literals.
-/
import Mathlib.Data.EReal.Operations
import Mathlib.Algebra.BigOperators.Group.Finset.Basic
import Mathlib.Algebra.Order.BigOperators.Group.Finset
import proofs.«401203_j32512902431448_2_alg».proof.Proof.Spec

noncomputable section

namespace Cert.Gcn

open Idealize.ShloMosaic Finset

/-! ## The three literals -/

/-- The word of 64.0 denotes the real 64. -/
theorem ofBits_64 : Ideal.ofBits .f32 0x42800000#32 = ((64 : ℝ) : EReal) := by
  simp [Ideal.ofBits, Ideal.ieee, -EReal.coe_mul]; norm_num

/-- The word of 0.015625 denotes the real 1/64. -/
theorem ofBits_inv64 : Ideal.ofBits .f32 0x3C800000#32 = (((1 : ℝ) / 64 : ℝ) : EReal) := by
  simp [Ideal.ofBits, Ideal.ieee, -EReal.coe_mul]; norm_num

/-- The word of 1.0 denotes 1. -/
theorem ofBits_one : Ideal.ofBits .f32 0x3F800000#32 = 1 := by
  simp [Ideal.ofBits, Ideal.ieee, -EReal.coe_mul]; norm_num

/-- Dividing by 64.0 is multiplying by 0.015625, on every extended real. -/
theorem div_64 (y : EReal) :
    Ideal.div y (Ideal.ofBits .f32 0x42800000#32) = y * Ideal.ofBits .f32 0x3C800000#32 := by
  rw [ofBits_64, ofBits_inv64]
  exact Ideal.div_coe (by norm_num) y

/-! ## Distributing over non-negative terms -/

/-- A factor distributes over a finite sum of non-negative extended reals. -/
theorem mul_sum_of_nonneg {ι : Type} (S : Finset ι) (a : EReal) (f : ι → EReal) (hf : ∀ i ∈ S, 0 ≤ f i) :
    a * ∑ i ∈ S, f i = ∑ i ∈ S, a * f i := by
  classical
  induction S using Finset.induction_on with
  | empty => simp
  | insert i S hi ih =>
    have h1 : 0 ≤ f i := hf i (mem_insert_self i S)
    have h2 : ∀ j ∈ S, 0 ≤ f j := fun j hj => hf j (mem_insert_of_mem hj)
    rw [sum_insert hi, sum_insert hi, EReal.left_distrib_of_nonneg h1 (sum_nonneg h2), ih h2]

/-! ## The law -/

variable (s d : Fin E → Fin 1024) (w : Fin E → EReal)

/-- Through the dense matrix or edge by edge: the same aggregate. -/
theorem sum_mul_adj (hw : ∀ e, 0 ≤ w e) (g : Fin 1024 → EReal) (n : Fin 1024) :
    ∑ a : Fin 1024, g a * adj s d w a n = ∑ e : Fin E, if d e = n then g (s e) * w e else 0 := by
  unfold adj
  have step1 : ∀ a : Fin 1024, g a * ∑ e : Fin E, (if s e = a ∧ d e = n then w e else 0)
      = ∑ e : Fin E, if s e = a ∧ d e = n then g a * w e else 0 := fun a => by
    rw [mul_sum_of_nonneg univ (g a) _ (fun e _ => by split_ifs <;> [exact hw e; exact le_rfl])]
    exact sum_congr rfl fun e _ => by split_ifs <;> simp
  rw [sum_congr rfl fun a _ => step1 a, sum_comm]
  refine sum_congr rfl fun e _ => ?_
  by_cases hd : d e = n
  · rw [if_pos hd, sum_eq_single (s e)]
    · rw [if_pos ⟨rfl, hd⟩]
    · intro a _ ha; rw [if_neg fun h => ha h.1.symm]
    · intro h; exact absurd (mem_univ _) h
  · rw [if_neg hd]
    exact sum_eq_zero fun a _ => if_neg fun h => hd h.2

variable (x : Fin 1024 → Fin 64 → EReal) (W1 : Fin 64 → Fin 128 → EReal)
  (b1 : Fin 128 → EReal) (W2 : Fin 128 → Fin 64 → EReal) (b2 : Fin 64 → EReal)

theorem kLin1_eq (f : Fin 128) (a : Fin 1024) : kLin1 x W1 f a = rLin1 x W1 a f := by
  unfold kLin1 rLin1
  exact sum_congr rfl fun k _ => mul_comm _ _

theorem kAct1_eq (hw : ∀ e, 0 ≤ w e) (f : Fin 128) (n : Fin 1024) :
    kAct1 (adj s d w) x W1 b1 f n = rAct1 s d w x W1 b1 n f := by
  unfold kAct1 rAct1
  rw [sum_mul_adj s d w hw, zero_add]
  simp only [kLin1_eq]

theorem kLin2_eq (hw : ∀ e, 0 ≤ w e) (o : Fin 64) (a : Fin 1024) :
    kLin2 (adj s d w) x W1 b1 W2 o a = rLin2 s d w x W1 b1 W2 a o := by
  unfold kLin2 rLin2
  exact sum_congr rfl fun f _ => by rw [kAct1_eq s d w x W1 b1 hw, mul_comm]

theorem kAct2_eq (hw : ∀ e, 0 ≤ w e) (o : Fin 64) (n : Fin 1024) :
    kAct2 (adj s d w) x W1 b1 W2 b2 o n = rAct2 s d w x W1 b1 W2 b2 n o := by
  unfold kAct2 rAct2
  rw [sum_mul_adj s d w hw, zero_add]
  simp only [kLin2_eq s d w x W1 b1 W2 hw]

/-- THE BRIDGE: the kernel's form over the dense matrix of the edges is the reference's form. -/
theorem kOut_eq_rOut (hw : ∀ e, 0 ≤ w e) (n : Fin 1024) :
    kOut (adj s d w) x W1 b1 W2 b2 (Ideal.ofBits .f32 0x3C800000#32) n
      = rOut s d w x W1 b1 W2 b2 (Ideal.ofBits .f32 0x42800000#32) n := by
  unfold kOut rOut
  rw [div_64, zero_add]
  simp only [kAct2_eq s d w x W1 b1 W2 b2 hw]

end Cert.Gcn

end
-- ==== Proof.Edges.lean ====
/-
  The edge lists as both programs read them.  Each program appends the self loops 0 … 1023 to the
  given source and target lists, and then indexes with the results.  Where every given entry is a node
  number (in [0, 1024)) so is every entry of the extended list; jnp's wrap of negative indices and the
  gather's clamp then change nothing, and the flattened matrix position  source · 1024 + target  does
  not overflow and determines both nodes.
-/
import Idealize.ShloMosaic.PureOps
import Idealize.ShloMosaic.Lib.ValueIdx
import Idealize.ShloMosaic.Lib.Pipeline.Value
import Idealize.ShloMosaic.Lib.StableHlo.Predicate
import proofs.«401203_j32512902431448_2_alg».proof.Proof.Spec

noncomputable section

namespace Cert.Gcn.Edges

open Idealize.ShloMosaic Idealize.ShloMosaic.ValueIdx Cert.Gcn

/-- The given edge lists' shape. -/
abbrev SE0 : Shape := ⟨1, ![1047552]⟩
/-- The edge lists' shape once the self loops are appended. -/
abbrev SE : Shape := ⟨1, ![1048576]⟩
/-- The same as a one-column index table. -/
abbrev SE1 : Shape := ⟨2, ![1048576, 1]⟩
/-- The nodes' shape. -/
abbrev SN : Shape := ⟨1, ![1024]⟩
/-- The shape of a scalar. -/
abbrev S0 : Shape := ⟨0, ![]⟩

/-- Every entry of a given edge list is a node number. -/
def InRange (v : IVec SE0 32) : Prop := ∀ i : SE0.Idx, 0 ≤ (v i).toInt ∧ (v i).toInt < 1024

/-- Every entry of an extended edge list is a node number. -/
def Ranged (u : IVec SE 32) : Prop := ∀ e : Fin E, 0 ≤ (u (ix1 e)).toInt ∧ (u (ix1 e)).toInt < 1024

/-- A given edge list followed by the self loops 0 … 1023. -/
def withLoops (v : IVec SE0 32) (h : Shape.Concatenates [SE0, SN] SE 0) : IVec SE 32 :=
  concatenate SE 0 [⟨SE0, v⟩, ⟨SN, iotaInDim SN 32 0⟩] h

/-- The node an entry of an extended list names (its value, where that is a node number). -/
def node (u : IVec SE 32) (e : Fin E) : Fin 1024 := ⟨(u (ix1 e)).toNat % 1024, Nat.mod_lt _ (by norm_num)⟩

/-- A 32-bit word whose signed reading lies in [0, 1024) has the same unsigned reading, and it is below 1024. -/
theorem toNat_of_range {x : BitVec 32} (h0 : 0 ≤ x.toInt) (h1 : x.toInt < 1024) :
    x.toNat < 1024 ∧ x.toInt = (x.toNat : ℤ) := by
  have hlt : x.toNat < 2 ^ 32 := x.isLt
  rw [BitVec.toInt_eq_toNat_cond] at h0 h1 ⊢
  by_cases h : 2 * x.toNat < 2 ^ 32
  · rw [if_pos h] at h0 h1 ⊢
    exact ⟨by omega, rfl⟩
  · rw [if_neg h] at h0 h1
    exfalso; omega

/-- Appending the self loops keeps every entry a node number. -/
theorem withLoops_ranged {v : IVec SE0 32} (hv : InRange v) (h : Shape.Concatenates [SE0, SN] SE 0) :
    Ranged (withLoops v h) := by
  intro e
  by_cases he : e.val < 1047552
  · -- an entry of the given list
    have hval : withLoops v h (ix1 e) = v (ix1 ⟨e.val, he⟩) := by
      unfold withLoops
      exact concatenate_pair_apply_left (0 : Fin SE.rank) v (iotaInDim SN 32 0) h (ix1 e) rfl (ix1 ⟨e.val, he⟩)
        (fun b => match b with | ⟨0, _⟩ => rfl)
    rw [hval]
    exact hv _
  · -- a self loop: entry e is the number e - 1047552, below 1024
    have hk : e.val - 1047552 < 1024 := by have : e.val < 1048576 := e.isLt; omega
    have hval : withLoops v h (ix1 e) = BitVec.ofNat 32 (e.val - 1047552) := by
      unfold withLoops
      exact concatenate_pair_apply_right (0 : Fin SE.rank) v (iotaInDim SN 32 0) h (ix1 e) rfl rfl
        (ix1 ⟨e.val - 1047552, hk⟩) (fun b hb => absurd (Subsingleton.elim _ _) hb)
        (by show e.val - 1047552 + 1047552 = e.val; omega)
    rw [hval, StableHlo.Predicate.toInt_ofNat_small _ (by omega)]
    constructor <;> omega

/-- A node number read signed is the node. -/
theorem toInt_eq_node {u : IVec SE 32} (hu : Ranged u) (e : Fin E) : (u (ix1 e)).toInt = ((node u e).val : ℤ) := by
  obtain ⟨hlt, hint⟩ := toNat_of_range (hu e).1 (hu e).2
  rw [hint]
  show ((u (ix1 e)).toNat : ℤ) = (((u (ix1 e)).toNat % 1024 : ℕ) : ℤ)
  rw [Nat.mod_eq_of_lt hlt]

/-- jnp's wrap of negative indices (add 1024 where negative) leaves a list of node numbers as it is. -/
theorem wrap_eq {u : IVec SE 32} (hu : Ranged u) (hb : S0.BroadcastsInDim SE (![] : Fin 0 → Fin SE.rank)) :
    select (cmpi .slt u (broadcastInDim SE ![] hb (constantI S0 32 0#32)))
      (addi u (broadcastInDim SE ![] hb (constantI S0 32 1024#32))) u = u := by
  funext i
  obtain ⟨e, rfl⟩ : ∃ e : Fin E, i = ix1 e := ⟨i 0, eq_ix1 i⟩
  -- the entry is not negative, so the comparison with 0 fails and the select keeps the entry
  have hc : IntOp.cmpi .slt (u (ix1 e)) 0#32 = 0#1 := by
    have h0 := (hu e).1
    have hz : (0#32 : BitVec 32).toInt = 0 := by decide
    have hf : (u (ix1 e)).slt 0#32 = false := by
      show decide ((u (ix1 e)).toInt < (0#32 : BitVec 32).toInt) = false
      rw [hz, decide_eq_false_iff_not]; omega
    unfold IntOp.cmpi
    show BitVec.ofBool ((u (ix1 e)).slt 0#32) = 0#1
    rw [hf]; rfl
  show Scalar.select (IntOp.cmpi .slt (u (ix1 e)) 0#32) (IntOp.addi (u (ix1 e)) 1024#32) (u (ix1 e)) = u (ix1 e)
  rw [hc]
  exact select_zero _ _

/-- The clamp of a gather into a 1024-entry axis leaves a node number as it is. -/
theorem clamp_eq {u : IVec SE 32} (hu : Ranged u) (e : Fin E) :
    min (u (ix1 e)).toInt.toNat (1024 - 1) = (node u e).val := by
  obtain ⟨hlt, hint⟩ := toNat_of_range (hu e).1 (hu e).2
  rw [hint, Int.toNat_natCast]
  show min (u (ix1 e)).toNat (1024 - 1) = (u (ix1 e)).toNat % 1024
  rw [Nat.mod_eq_of_lt hlt]
  exact Nat.min_eq_left (by omega)

/-- The one-column index table made of a list holds the list's entry e in row e. -/
theorem col_apply {α : Type} (u : SE.Idx → α) (hb : SE.BroadcastsInDim SE1 (![0] : Fin 1 → Fin SE1.rank)) (e : Fin E) :
    broadcastInDim SE1 ![0] hb u (ix2 e (0 : Fin 1)) = u (ix1 e) := by
  refine broadcastInDim_apply _ hb u (ix2 e (0 : Fin 1)) (ix1 e) ?_
  intro a
  match a with
  | ⟨0, _⟩ =>
    show e.val = if (1048576 : ℕ) = 1 then 0 else e.val
    rw [if_neg (by omega)]

/-- The flattened matrix position of an edge, source · 1024 + target in 32-bit words, read signed, is the
    row-major position of (source node, target node): nothing wraps. -/
theorem flat_eq {sf df : IVec SE 32} (hs : Ranged sf) (hd : Ranged df)
    (hb : S0.BroadcastsInDim SE (![] : Fin 0 → Fin SE.rank)) (e : Fin E) :
    ((addi (muli sf (broadcastInDim SE ![] hb (constantI S0 32 1024#32))) df) (ix1 e)).toInt
      = (((node sf e).val * 1024 + (node df e).val : ℕ) : ℤ) := by
  obtain ⟨hs1, -⟩ := toNat_of_range (hs e).1 (hs e).2
  obtain ⟨hd1, -⟩ := toNat_of_range (hd e).1 (hd e).2
  show ((sf (ix1 e)) * 1024#32 + (df (ix1 e))).toInt
    = ((((sf (ix1 e)).toNat % 1024) * 1024 + (df (ix1 e)).toNat % 1024 : ℕ) : ℤ)
  -- as naturals the product and the sum stay below 2 ^ 20: nothing wraps
  have hc : (1024#32 : BitVec 32).toNat = 1024 := rfl
  have hn : ((sf (ix1 e)) * 1024#32 + (df (ix1 e))).toNat = (sf (ix1 e)).toNat * 1024 + (df (ix1 e)).toNat := by
    rw [BitVec.toNat_add, BitVec.toNat_mul, hc, Nat.mod_eq_of_lt (a := (sf (ix1 e)).toNat * 1024) (by omega),
      Nat.mod_eq_of_lt (by omega)]
  rw [StableHlo.Predicate.toInt_eq_toNat_of_lt (by rw [hn]; omega), hn, Nat.mod_eq_of_lt hs1, Nat.mod_eq_of_lt hd1]

end Cert.Gcn.Edges

end
-- ==== Proof.PreDecode.lean ====
/-
  The precondition read back.  The printed predicate is a conjunction of "all entries of …" tests: five
  that the float arrays are finite, then, for the given source list and for the given target list,
  all ((entry ≥ 0) ∧ (entry < 1024)), both comparisons signed.  Where the predicate is one, each
  conjunct is one, each test holds at every entry, and so every given entry is a node number.
-/
import proofs.«401203_j32512902431448_2_alg».proof.Pre_finite_inputs
import proofs.«401203_j32512902431448_2_alg».proof.Proof.Gen.Pre_finite_inputs
import proofs.«401203_j32512902431448_2_alg».proof.Proof.Edges
import Idealize.ShloMosaic.Lib.ReduceAll

noncomputable section

namespace Cert.Gcn.PreDecode

open Idealize.ShloMosaic Idealize.ShloMosaic.ValueIdx

/-- The scalar shape has one index. -/
instance : Subsingleton Cert.Pre_finite_inputs.S_.Idx := ⟨fun a b => funext fun d => d.elim0⟩

/-- One entry's test read back: a word that is at least 0 and below 1024, signed, is a node number. -/
theorem elt_in_range {x : BitVec 32}
    (h : IntOp.andi (IntOp.cmpi .sge x 0#32) (IntOp.cmpi .slt x 1024#32) = 1#1) :
    0 ≤ x.toInt ∧ x.toInt < 1024 := by
  obtain ⟨h0, h1⟩ := IntOp.andi_eq_one.1 h
  rw [IntOp.cmpi_sge, show (0#32 : BitVec 32).toInt = 0 from by decide] at h0
  rw [IntOp.cmpi_slt, show (1024#32 : BitVec 32).toInt = 1024 from by decide] at h1
  exact ⟨h0, h1⟩

/-- Where the printed precondition is one, both given edge lists hold node numbers only. -/
theorem ranges_of_pre {F : FTy → Type} [FloatOps F] [Cert.Pre_finite_inputs.Facts]
    (a0 : FVec F Cert.Pre_finite_inputs.S1024x64 .f32) (a1 : FVec F Cert.Pre_finite_inputs.S64x128 .f32)
    (a2 : FVec F Cert.Pre_finite_inputs.S128 .f32) (a3 : FVec F Cert.Pre_finite_inputs.S128x64 .f32)
    (a4 : FVec F Cert.Pre_finite_inputs.S64 .f32) (a5 a6 : IVec Cert.Pre_finite_inputs.S1047552 32)
    (h : Cert.Pre_finite_inputs.fn (F := F) a0 a1 a2 a3 a4 a5 a6 = fun _ => 1#1) :
    Cert.Gcn.Edges.InRange a5 ∧ Cert.Gcn.Edges.InRange a6 := by
  have e := congrFun h ValueIdx.ix0
  dsimp only [Cert.Pre_finite_inputs.fn, Cert.Pre_finite_inputs.fn_part1, Cert.Pre_finite_inputs.fn_part2] at e
  -- the outermost conjunction: (everything before) ∧ (the target list's test)
  obtain ⟨e30, e36⟩ := IntOp.andi_eq_one.1 e
  -- the one before it: (the float tests) ∧ (the source list's test)
  obtain ⟨-, e29⟩ := IntOp.andi_eq_one.1 e30
  exact ⟨fun i => elt_in_range (Host.reduce_andi_all _ _ _ _ _ e29 i),
    fun i => elt_in_range (Host.reduce_andi_all _ _ _ _ _ e36 i)⟩

end Cert.Gcn.PreDecode

end
-- ==== Proof.KernelValueMatmul.lean ====
import proofs.«401203_j32512902431448_2_alg».proof.Proof.Gen.KernelIdeal.Skeleton
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.ValueIdx

/-! # The body's four matrix products, each read at one entry

At the ideal values a matrix product into a zero accumulator is, entry by entry, the sum over the one
contracted axis of the products of the operands' entries: row p of the left operand against column q of the
right one. The four products of the body differ only in their extents. For each: the operand index the
product reads on each axis (the kept axis carries the output's coordinate, the contracted axis the
summation's), then the entry as a sum over the contracted coordinate. -/

/-! ### The first layer's linear map: [128, 64] · [64, 1024] -/

theorem lhs1_0 (i : S128x1024.Idx) (q : dot_S128x64_S64x1024_S128x1024_1_0_0_1_n_n.contr.Idx) :
    (dot_S128x64_S64x1024_S128x1024_1_0_0_1_n_n.lhsIdx i q 0).val = (i 0).val := by
  unfold DotDims.lhsIdx
  rw [dif_neg (show ¬(0 : Fin S128x64.rank) ∈ dot_S128x64_S64x1024_S128x1024_1_0_0_1_n_n.lhsBatch by decide), dif_pos (show (0 : Fin S128x64.rank) ∈ dot_S128x64_S64x1024_S128x1024_1_0_0_1_n_n.lhsNonContracting by decide)]
  rfl
theorem lhs1_1 (i : S128x1024.Idx) (q : dot_S128x64_S64x1024_S128x1024_1_0_0_1_n_n.contr.Idx) :
    (dot_S128x64_S64x1024_S128x1024_1_0_0_1_n_n.lhsIdx i q 1).val = (q ⟨0, by decide⟩).val :=
  dot_S128x64_S64x1024_S128x1024_1_0_0_1_n_n.lhsIdx_val_of_single rfl i q
theorem rhs1_0 (i : S128x1024.Idx) (q : dot_S128x64_S64x1024_S128x1024_1_0_0_1_n_n.contr.Idx) :
    (dot_S128x64_S64x1024_S128x1024_1_0_0_1_n_n.rhsIdx i q 0).val = (q ⟨0, by decide⟩).val :=
  dot_S128x64_S64x1024_S128x1024_1_0_0_1_n_n.rhsIdx_val_of_single rfl i q
theorem rhs1_1 (i : S128x1024.Idx) (q : dot_S128x64_S64x1024_S128x1024_1_0_0_1_n_n.contr.Idx) :
    (dot_S128x64_S64x1024_S128x1024_1_0_0_1_n_n.rhsIdx i q 1).val = (i 1).val := by
  unfold DotDims.rhsIdx
  rw [dif_neg (show ¬(1 : Fin S64x1024.rank) ∈ dot_S128x64_S64x1024_S128x1024_1_0_0_1_n_n.rhsBatch by decide), dif_pos (show (1 : Fin S64x1024.rank) ∈ dot_S128x64_S64x1024_S128x1024_1_0_0_1_n_n.rhsNonContracting by decide)]
  rfl

/-- Entry (p, q) is the sum over the 64 contracted coordinates k of lhs (p, k) · rhs (k, q). -/
theorem mm1_apply (l : FVec Ideal S128x64 .bf16) (r : FVec Ideal S64x1024 .bf16) (p : Fin 128) (q : Fin 1024) :
    matmul dot_S128x64_S64x1024_S128x1024_1_0_0_1_n_n none l r (constant S128x1024 .f32 0x00000000#32) (ix2 p q)
      = ∑ k : Fin 64, l (ix2 p k) * r (ix2 k q) := by
  simp only [matmul]
  rw [Ideal.matmul_constant_zero_apply, ← Equiv.sum_comp (contrEquiv1 dot_S128x64_S64x1024_S128x1024_1_0_0_1_n_n 64 rfl rfl).symm]
  refine Finset.sum_congr rfl fun k _ => ?_
  have hk := contrEquiv1_symm_val dot_S128x64_S64x1024_S128x1024_1_0_0_1_n_n 64 rfl rfl k
  have el : dot_S128x64_S64x1024_S128x1024_1_0_0_1_n_n.lhsIdx (ix2 p q) ((contrEquiv1 dot_S128x64_S64x1024_S128x1024_1_0_0_1_n_n 64 rfl rfl).symm k) = ix2 p k := funext fun a => Fin.ext (by
    match a with
    | ⟨0, _⟩ => exact lhs1_0 _ _
    | ⟨1, _⟩ => exact (lhs1_1 _ _).trans hk)
  have er : dot_S128x64_S64x1024_S128x1024_1_0_0_1_n_n.rhsIdx (ix2 p q) ((contrEquiv1 dot_S128x64_S64x1024_S128x1024_1_0_0_1_n_n 64 rfl rfl).symm k) = ix2 k q := funext fun a => Fin.ext (by
    match a with
    | ⟨0, _⟩ => exact (rhs1_0 _ _).trans hk
    | ⟨1, _⟩ => exact rhs1_1 _ _)
  rw [el, er]

/-! ### The first layer's aggregation over the nodes: [128, 1024] · [1024, 1024] -/

theorem lhs2_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs2_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs2_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs2_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- Entry (p, q) is the sum over the 1024 contracted coordinates k of lhs (p, k) · rhs (k, q). -/
theorem mm2_apply (l : FVec Ideal S128x1024 .bf16) (r : FVec Ideal S1024x1024 .bf16) (p : Fin 128) (q : Fin 1024) :
    matmul dot_S128x1024_S1024x1024_S128x1024_1_0_0_1_n_n none l r (constant S128x1024 .f32 0x00000000#32) (ix2 p q)
      = ∑ k : Fin 1024, l (ix2 p k) * r (ix2 k q) := by
  simp only [matmul]
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p q) ((contrEquiv1 dot_S128x1024_S1024x1024_S128x1024_1_0_0_1_n_n 1024 rfl rfl).symm k) = ix2 p k := funext fun a => Fin.ext (by
    match a with
    | ⟨0, _⟩ => exact lhs2_0 _ _
    | ⟨1, _⟩ => exact (lhs2_1 _ _).trans hk)
  have er : dot_S128x1024_S1024x1024_S128x1024_1_0_0_1_n_n.rhsIdx (ix2 p q) ((contrEquiv1 dot_S128x1024_S1024x1024_S128x1024_1_0_0_1_n_n 1024 rfl rfl).symm k) = ix2 k q := funext fun a => Fin.ext (by
    match a with
    | ⟨0, _⟩ => exact (rhs2_0 _ _).trans hk
    | ⟨1, _⟩ => exact rhs2_1 _ _)
  rw [el, er]

/-! ### The second layer's linear map: [64, 128] · [128, 1024] -/

theorem lhs3_0 (i : S64x1024.Idx) (q : dot_S64x128_S128x1024_S64x1024_1_0_0_1_n_n.contr.Idx) :
    (dot_S64x128_S128x1024_S64x1024_1_0_0_1_n_n.lhsIdx i q 0).val = (i 0).val := by
  unfold DotDims.lhsIdx
  rw [dif_neg (show ¬(0 : Fin S64x128.rank) ∈ dot_S64x128_S128x1024_S64x1024_1_0_0_1_n_n.lhsBatch by decide), dif_pos (show (0 : Fin S64x128.rank) ∈ dot_S64x128_S128x1024_S64x1024_1_0_0_1_n_n.lhsNonContracting by decide)]
  rfl
theorem lhs3_1 (i : S64x1024.Idx) (q : dot_S64x128_S128x1024_S64x1024_1_0_0_1_n_n.contr.Idx) :
    (dot_S64x128_S128x1024_S64x1024_1_0_0_1_n_n.lhsIdx i q 1).val = (q ⟨0, by decide⟩).val :=
  dot_S64x128_S128x1024_S64x1024_1_0_0_1_n_n.lhsIdx_val_of_single rfl i q
theorem rhs3_0 (i : S64x1024.Idx) (q : dot_S64x128_S128x1024_S64x1024_1_0_0_1_n_n.contr.Idx) :
    (dot_S64x128_S128x1024_S64x1024_1_0_0_1_n_n.rhsIdx i q 0).val = (q ⟨0, by decide⟩).val :=
  dot_S64x128_S128x1024_S64x1024_1_0_0_1_n_n.rhsIdx_val_of_single rfl i q
theorem rhs3_1 (i : S64x1024.Idx) (q : dot_S64x128_S128x1024_S64x1024_1_0_0_1_n_n.contr.Idx) :
    (dot_S64x128_S128x1024_S64x1024_1_0_0_1_n_n.rhsIdx i q 1).val = (i 1).val := by
  unfold DotDims.rhsIdx
  rw [dif_neg (show ¬(1 : Fin S128x1024.rank) ∈ dot_S64x128_S128x1024_S64x1024_1_0_0_1_n_n.rhsBatch by decide), dif_pos (show (1 : Fin S128x1024.rank) ∈ dot_S64x128_S128x1024_S64x1024_1_0_0_1_n_n.rhsNonContracting by decide)]
  rfl

/-- Entry (p, q) is the sum over the 128 contracted coordinates k of lhs (p, k) · rhs (k, q). -/
theorem mm3_apply (l : FVec Ideal S64x128 .bf16) (r : FVec Ideal S128x1024 .bf16) (p : Fin 64) (q : Fin 1024) :
    matmul dot_S64x128_S128x1024_S64x1024_1_0_0_1_n_n none l r (constant S64x1024 .f32 0x00000000#32) (ix2 p q)
      = ∑ k : Fin 128, l (ix2 p k) * r (ix2 k q) := by
  simp only [matmul]
  rw [Ideal.matmul_constant_zero_apply, ← Equiv.sum_comp (contrEquiv1 dot_S64x128_S128x1024_S64x1024_1_0_0_1_n_n 128 rfl rfl).symm]
  refine Finset.sum_congr rfl fun k _ => ?_
  have hk := contrEquiv1_symm_val dot_S64x128_S128x1024_S64x1024_1_0_0_1_n_n 128 rfl rfl k
  have el : dot_S64x128_S128x1024_S64x1024_1_0_0_1_n_n.lhsIdx (ix2 p q) ((contrEquiv1 dot_S64x128_S128x1024_S64x1024_1_0_0_1_n_n 128 rfl rfl).symm k) = ix2 p k := funext fun a => Fin.ext (by
    match a with
    | ⟨0, _⟩ => exact lhs3_0 _ _
    | ⟨1, _⟩ => exact (lhs3_1 _ _).trans hk)
  have er : dot_S64x128_S128x1024_S64x1024_1_0_0_1_n_n.rhsIdx (ix2 p q) ((contrEquiv1 dot_S64x128_S128x1024_S64x1024_1_0_0_1_n_n 128 rfl rfl).symm k) = ix2 k q := funext fun a => Fin.ext (by
    match a with
    | ⟨0, _⟩ => exact (rhs3_0 _ _).trans hk
    | ⟨1, _⟩ => exact rhs3_1 _ _)
  rw [el, er]

/-! ### The second layer's aggregation over the nodes: [64, 1024] · [1024, 1024] -/

theorem lhs4_0 (i : S64x1024.Idx) (q : dot_S64x1024_S1024x1024_S64x1024_1_0_0_1_n_n.contr.Idx) :
    (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
  rfl
theorem lhs4_1 (i : S64x1024.Idx) (q : dot_S64x1024_S1024x1024_S64x1024_1_0_0_1_n_n.contr.Idx) :
    (dot_S64x1024_S1024x1024_S64x1024_1_0_0_1_n_n.lhsIdx i q 1).val = (q ⟨0, by decide⟩).val :=
  dot_S64x1024_S1024x1024_S64x1024_1_0_0_1_n_n.lhsIdx_val_of_single rfl i q
theorem rhs4_0 (i : S64x1024.Idx) (q : dot_S64x1024_S1024x1024_S64x1024_1_0_0_1_n_n.contr.Idx) :
    (dot_S64x1024_S1024x1024_S64x1024_1_0_0_1_n_n.rhsIdx i q 0).val = (q ⟨0, by decide⟩).val :=
  dot_S64x1024_S1024x1024_S64x1024_1_0_0_1_n_n.rhsIdx_val_of_single rfl i q
theorem rhs4_1 (i : S64x1024.Idx) (q : dot_S64x1024_S1024x1024_S64x1024_1_0_0_1_n_n.contr.Idx) :
    (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
  rfl

/-- Entry (p, q) is the sum over the 1024 contracted coordinates k of lhs (p, k) · rhs (k, q). -/
theorem mm4_apply (l : FVec Ideal S64x1024 .bf16) (r : FVec Ideal S1024x1024 .bf16) (p : Fin 64) (q : Fin 1024) :
    matmul dot_S64x1024_S1024x1024_S64x1024_1_0_0_1_n_n none l r (constant S64x1024 .f32 0x00000000#32) (ix2 p q)
      = ∑ k : Fin 1024, l (ix2 p k) * r (ix2 k q) := by
  simp only [matmul]
  rw [Ideal.matmul_constant_zero_apply, ← Equiv.sum_comp (contrEquiv1 dot_S64x1024_S1024x1024_S64x1024_1_0_0_1_n_n 1024 rfl rfl).symm]
  refine Finset.sum_congr rfl fun k _ => ?_
  have hk := contrEquiv1_symm_val dot_S64x1024_S1024x1024_S64x1024_1_0_0_1_n_n 1024 rfl rfl k
  have el : dot_S64x1024_S1024x1024_S64x1024_1_0_0_1_n_n.lhsIdx (ix2 p q) ((contrEquiv1 dot_S64x1024_S1024x1024_S64x1024_1_0_0_1_n_n 1024 rfl rfl).symm k) = ix2 p k := funext fun a => Fin.ext (by
    match a with
    | ⟨0, _⟩ => exact lhs4_0 _ _
    | ⟨1, _⟩ => exact (lhs4_1 _ _).trans hk)
  have er : dot_S64x1024_S1024x1024_S64x1024_1_0_0_1_n_n.rhsIdx (ix2 p q) ((contrEquiv1 dot_S64x1024_S1024x1024_S64x1024_1_0_0_1_n_n 1024 rfl rfl).symm k) = ix2 k q := funext fun a => Fin.ext (by
    match a with
    | ⟨0, _⟩ => exact (rhs4_0 _ _).trans hk
    | ⟨1, _⟩ => exact rhs4_1 _ _)
  rw [el, er]

end Cert.KernelIdeal.KValue

end
-- ==== Proof.KernelValuePay.lean ====
import proofs.«401203_j32512902431448_2_alg».proof.Proof.KernelValueMatmul
import proofs.«401203_j32512902431448_2_alg».proof.Proof.Spec
import Idealize.ShloMosaic.Lib.Pipeline.Value

noncomputable section

namespace Cert.KernelIdeal.KValue

open Cert.KernelIdeal Cert.KernelIdeal.Gen Idealize.ShloMosaic Idealize.ShloMosaic.ValueIdx

/-! # The body's result at a node, as the specification's transposed two-layer form

The body holds every feature array transposed: x as [64, 1024], W1 as [128, 64], W2 as [64, 128], the biases
as columns [128, 1] and [64, 1]. Read entry by entry its stages are the specification's kLin1, kAct1, kLin2,
kAct2 and kOut at M a b = x0 (a, b), x a k = x1 (k, a), W1 k f = x2 (f, k), b1 f = x3 (f, 0),
W2 f o = x4 (o, f), b2 o = x5 (o, 0). At the ideal values the narrowing to bf16 changes nothing. -/

/-- A bias column [128, 1] broadcast along the nodes reads its row's one entry. -/
theorem bias1_apply (b : FVec Ideal S128x1 .f32) (f : Fin 128) (n : Fin 1024) :
    broadcastTo S128x1024 b broadcasts_S128x1_S128x1024 (ix2 f n) = b (ix2 f 0) := by
  refine broadcastTo_apply b broadcasts_S128x1_S128x1024 (ix2 f n) (ix2 f 0) fun a => ?_
  match a with
  | ⟨0, _⟩ => rfl
  | ⟨1, _⟩ => rfl

/-- A bias column [64, 1] broadcast along the nodes reads its row's one entry. -/
theorem bias2_apply (b : FVec Ideal S64x1 .f32) (o : Fin 64) (n : Fin 1024) :
    broadcastTo S64x1024 b broadcasts_S64x1_S64x1024 (ix2 o n) = b (ix2 o 0) := by
  refine broadcastTo_apply b broadcasts_S64x1_S64x1024 (ix2 o n) (ix2 o 0) fun a => ?_
  match a with
  | ⟨0, _⟩ => rfl
  | ⟨1, _⟩ => rfl

/-- The sum over the 64 output features (axis 0) of a [64, 1024] array, at node n. -/
theorem featureSum_apply (v : FVec Ideal S64x1024 .f32) (n : Fin 1024) :
    multiReduction (F := Ideal) .add [0] S1024 v 0x00000000#32 reduces_S64x1024_S1024 (.inl rfl) rfl (ix1 n)
      = ∑ o : Fin 64, v (ix2 o n) := by
  refine (Ideal.multiReduction_add_single v 0x00000000#32 reduces_S64x1024_S1024 (.inl rfl) rfl (ix1 n)).trans ?_
  refine Finset.sum_congr rfl fun o _ => congrArg v ?_
  funext a
  match a with
  | ⟨0, _⟩ => rfl
  | ⟨1, _⟩ => rfl

section Stages

variable (x0 : Vec Ideal S1024x1024 .bf16) (x1 : Vec Ideal S64x1024 .f32) (x2 : Vec Ideal S128x64 .f32)
  (x3 : Vec Ideal S128x1 .f32) (x4 : Vec Ideal S64x128 .f32) (x5 : Vec Ideal S64x1 .f32)

/-- The first linear map, [128, 1024]: W1ᵀ · xᵀ. -/
def lin1 : FVec Ideal S128x1024 .f32 :=
  matmul dot_S128x64_S64x1024_S128x1024_1_0_0_1_n_n none
    (truncf .bf16 (shapeCast S128x64 x2 shapeCasts_S128x64_S128x64) bitsLt_bf16_f32)
    (truncf .bf16 (shapeCast S64x1024 x1 shapeCasts_S64x1024_S64x1024) bitsLt_bf16_f32)
    (constant S128x1024 .f32 0x00000000#32)

/-- The first layer, [128, 1024]: aggregated through the dense matrix, biased, rectified. -/
def act1 : FVec Ideal S128x1024 .f32 :=
  maximumf
    (addf
      (matmul dot_S128x1024_S1024x1024_S128x1024_1_0_0_1_n_n none
        (truncf .bf16 (lin1 x1 x2) bitsLt_bf16_f32)
        (shapeCast S1024x1024 x0 shapeCasts_S1024x1024_S1024x1024 : FVec Ideal S1024x1024 .bf16)
        (constant S128x1024 .f32 0x00000000#32))
      (broadcastTo S128x1024 (shapeCast S128x1 x3 shapeCasts_S128x1_S128x1) broadcasts_S128x1_S128x1024))
    (broadcast S128x1024 (Scalar.ofBits .f32 0x00000000#32))

/-- The second linear map, [64, 1024]: W2ᵀ · (first layer). -/
def lin2 : FVec Ideal S64x1024 .f32 :=
  matmul dot_S64x128_S128x1024_S64x1024_1_0_0_1_n_n none
    (truncf .bf16 (shapeCast S64x128 x4 shapeCasts_S64x128_S64x128) bitsLt_bf16_f32)
    (truncf .bf16 (act1 x0 x1 x2 x3) bitsLt_bf16_f32)
    (constant S64x1024 .f32 0x00000000#32)

/-- The second layer, [64, 1024]: aggregated through the dense matrix, biased, rectified. -/
def act2 : FVec Ideal S64x1024 .f32 :=
  maximumf
    (addf
      (matmul dot_S64x1024_S1024x1024_S64x1024_1_0_0_1_n_n none
        (truncf .bf16 (lin2 x0 x1 x2 x3 x4) bitsLt_bf16_f32)
        (shapeCast S1024x1024 x0 shapeCasts_S1024x1024_S1024x1024 : FVec Ideal S1024x1024 .bf16)
        (constant S64x1024 .f32 0x00000000#32))
      (broadcastTo S64x1024 (shapeCast S64x1 x5 shapeCasts_S64x1_S64x1) broadcasts_S64x1_S64x1024))
    (broadcast S64x1024 (Scalar.ofBits .f32 0x00000000#32))

/-- The body's one stored value is the feature sum of the second layer times the constant. -/
theorem pay_eq :
    k0_pay1 (F := Ideal) x0 x1 x2 x3 x4 x5
      = mulf (multiReduction (F := Ideal) .add [0] S1024 (act2 x0 x1 x2 x3 x4 x5) 0x00000000#32 reduces_S64x1024_S1024 (.inl rfl) rfl)
          (broadcast S1024 (Scalar.ofBits .f32 0x3C800000#32)) := rfl

theorem lin1_apply (f : Fin 128) (a : Fin 1024) :
    lin1 x1 x2 (ix2 f a) = Cert.Gcn.kLin1 (fun a k => x1 (ix2 k a)) (fun k f => x2 (ix2 f k)) f a := by
  unfold lin1 Cert.Gcn.kLin1
  rw [mm1_apply]
  simp only [truncf_apply, shapeCast_self]

theorem act1_apply (f : Fin 128) (n : Fin 1024) :
    act1 x0 x1 x2 x3 (ix2 f n)
      = Cert.Gcn.kAct1 (fun a b => x0 (ix2 a b)) (fun a k => x1 (ix2 k a)) (fun k f => x2 (ix2 f k)) (fun f => x3 (ix2 f 0)) f n := by
  unfold act1 Cert.Gcn.kAct1
  rw [maximumf_apply, addf_apply, broadcast_apply, mm2_apply, bias1_apply]
  simp only [truncf_apply, shapeCast_self, lin1_apply]
  rw [show (Scalar.ofBits .f32 0x00000000#32 : Ideal .f32) = 0 from Ideal.ofBits_zero_f32]

theorem lin2_apply (o : Fin 64) (a : Fin 1024) :
    lin2 x0 x1 x2 x3 x4 (ix2 o a)
      = Cert.Gcn.kLin2 (fun a b => x0 (ix2 a b)) (fun a k => x1 (ix2 k a)) (fun k f => x2 (ix2 f k)) (fun f => x3 (ix2 f 0)) (fun f o => x4 (ix2 o f)) o a := by
  unfold lin2 Cert.Gcn.kLin2
  rw [mm3_apply]
  simp only [truncf_apply, shapeCast_self, act1_apply]

theorem act2_apply (o : Fin 64) (n : Fin 1024) :
    act2 x0 x1 x2 x3 x4 x5 (ix2 o n)
      = Cert.Gcn.kAct2 (fun a b => x0 (ix2 a b)) (fun a k => x1 (ix2 k a)) (fun k f => x2 (ix2 f k)) (fun f => x3 (ix2 f 0)) (fun f o => x4 (ix2 o f)) (fun o => x5 (ix2 o 0)) o n := by
  unfold act2 Cert.Gcn.kAct2
  rw [maximumf_apply, addf_apply, broadcast_apply, mm4_apply, bias2_apply]
  simp only [truncf_apply, shapeCast_self, lin2_apply]
  rw [show (Scalar.ofBits .f32 0x00000000#32 : Ideal .f32) = 0 from Ideal.ofBits_zero_f32]

/-- THE BODY'S RESULT AT NODE n is the specification's kOut of the blocks read transposed. -/
theorem pay_apply (n : Fin 1024) :
    k0_pay1 (F := Ideal) x0 x1 x2 x3 x4 x5 (ix1 n)
      = Cert.Gcn.kOut (fun a b => x0 (ix2 a b)) (fun a k => x1 (ix2 k a)) (fun k f => x2 (ix2 f k)) (fun f => x3 (ix2 f 0))
          (fun f o => x4 (ix2 o f)) (fun o => x5 (ix2 o 0)) (Ideal.ofBits .f32 0x3C800000#32) n := by
  rw [pay_eq, mulf_apply, broadcast_apply, featureSum_apply]
  unfold Cert.Gcn.kOut
  simp only [act2_apply]
  rfl

end Stages

end Cert.KernelIdeal.KValue

end
-- ==== Proof.KernelValue.lean ====
import proofs.«401203_j32512902431448_2_alg».proof.Proof.Gen.KernelIdeal.Value
import proofs.«401203_j32512902431448_2_alg».proof.Proof.KernelValuePay
import Idealize.ShloMosaic.Lib.Pipeline.Value
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! # The value of the kernel's one call

The grid has one point and every window's block is its whole array, at block index 0 on every axis. So the
one write-back writes the body's result of the six operand arrays themselves, and it covers the result
array: after the run that array is the body's stored value of the operand arrays, node by node. Five of the
operands are transposes or column reshapes of the program's arguments made before the call; the dense
matrix (operand 0) is kept as the array the call finds. With the body read at a node (the module on the
body's stages) the result at node n is the specification's kOut of the arguments. -/

variable (m : (ℓ : Loc nD τ sig) → Buf (Elt Ideal) ℓ)

theorem hz1 : (![0] : Fin 1 → Nat) = fun _ => 0 := funext fun a => by fin_cases a; rfl
theorem hz2 : (![0, 0] : Fin 2 → Nat) = fun _ => 0 := funext fun a => by fin_cases a <;> rfl

/-! ## Every block starts at the array's origin -/

theorem off0 (t : Fin cfg0.N) : (fun a => win0_0.index t a * main_v30.ty.shape.size a) = fun _ => 0 :=
  funext fun a => by fin_cases a <;> rfl
theorem off1 (t : Fin cfg0.N) : (fun a => win0_1.index t a * main_v31.ty.shape.size a) = fun _ => 0 :=
  funext fun a => by fin_cases a <;> rfl
theorem off2 (t : Fin cfg0.N) : (fun a => win0_2.index t a * main_v32.ty.shape.size a) = fun _ => 0 :=
  funext fun a => by fin_cases a <;> rfl
theorem off3 (t : Fin cfg0.N) : (fun a => win0_3.index t a * main_v34.ty.shape.size a) = fun _ => 0 :=
  funext fun a => by fin_cases a <;> rfl
theorem off4 (t : Fin cfg0.N) : (fun a => win0_4.index t a * main_v33.ty.shape.size a) = fun _ => 0 :=
  funext fun a => by fin_cases a <;> rfl
theorem off5 (t : Fin cfg0.N) : (fun a => win0_5.index t a * main_v35.ty.shape.size a) = fun _ => 0 :=
  funext fun a => by fin_cases a <;> rfl
theorem off6 (t : Fin cfg0.N) : (fun a => win0_6.index t a * main_v36.ty.shape.size a) = fun _ => 0 :=
  funext fun a => by fin_cases a; rfl

/-! ## So each input window's block is its whole array -/

theorem iblk0 (c : Dev nD) (t : Fin cfg0.N) : iblk m c 0 t = V m c main_v30 := by
  unfold iblk
  exact Memref.read_access_unit_zero (Elt Ideal) main_v30 (off0 t) (fun a => by rw [congrFun (off0 t) a]; simp) (V m c main_v30)
theorem iblk1 (c : Dev nD) (t : Fin cfg0.N) : iblk m c 1 t = V m c main_v31 := by
  unfold iblk
  exact Memref.read_access_unit_zero (Elt Ideal) main_v31 (off1 t) (fun a => by rw [congrFun (off1 t) a]; simp) (V m c main_v31)
theorem iblk2 (c : Dev nD) (t : Fin cfg0.N) : iblk m c 2 t = V m c main_v32 := by
  unfold iblk
  exact Memref.read_access_unit_zero (Elt Ideal) main_v32 (off2 t) (fun a => by rw [congrFun (off2 t) a]; simp) (V m c main_v32)
theorem iblk3 (c : Dev nD) (t : Fin cfg0.N) : iblk m c 3 t = V m c main_v34 := by
  unfold iblk
  exact Memref.read_access_unit_zero (Elt Ideal) main_v34 (off3 t) (fun a => by rw [congrFun (off3 t) a]; simp) (V m c main_v34)
theorem iblk4 (c : Dev nD) (t : Fin cfg0.N) : iblk m c 4 t = V m c main_v33 := by
  unfold iblk
  exact Memref.read_access_unit_zero (Elt Ideal) main_v33 (off4 t) (fun a => by rw [congrFun (off4 t) a]; simp) (V m c main_v33)
theorem iblk5 (c : Dev nD) (t : Fin cfg0.N) : iblk m c 5 t = V m c main_v35 := by
  unfold iblk
  exact Memref.read_access_unit_zero (Elt Ideal) main_v35 (off5 t) (fun a => by rw [congrFun (off5 t) a]; simp) (V m c main_v35)

/-! ## What the body leaves in the output's buffer: its one store covers the buffer -/

theorem out_whole (x0 : Vec Ideal S1024x1024 .bf16) (x1 : Vec Ideal S64x1024 .f32) (x2 : Vec Ideal S128x64 .f32)
    (x3 : Vec Ideal S128x1 .f32) (x4 : Vec Ideal S64x128 .f32) (x5 : Vec Ideal S64x1 .f32) :
    out0_6 x0 x1 x2 x3 x4 x5 = k0_pay1 (F := Ideal) x0 x1 x2 x3 x4 x5 := by
  unfold out0_6
  rw [View.canon_unit_zero hz1]
  simp only [View.ld_unit_zero (S := S1024x1024) hz2, View.ld_unit_zero (S := S64x1024) hz2,
    View.ld_unit_zero (S := S128x64) hz2, View.ld_unit_zero (S := S128x1) hz2,
    View.ld_unit_zero (S := S64x128) hz2, View.ld_unit_zero (S := S64x1) hz2]

/-- The result array as one function of the operand arrays the call finds. -/
abbrev G (c : Dev nD) : FVec Ideal S1024 .f32 :=
  k0_pay1 (F := Ideal) (V m c main_v30) (V m c main_v31) (V m c main_v32) (V m c main_v34) (V m c main_v33) (V m c main_v35)

/-- WHAT THE ONE POINT WRITES BACK is the whole of G. -/
theorem flushed_eq (c : Dev nD) (t : Fin cfg0.N) :
    (dats m 0 c).flushed 6 t = ((cfg0.win 6).blk t).view.read (Elt Ideal) (G m c) := by
  rw [Value.flushed6, iblk0 m c t, iblk1 m c t, iblk2 m c t, iblk3 m c t, iblk4 m c t, iblk5 m c t,
    out_whole (V m c main_v30) (V m c main_v31) (V m c main_v32) (V m c main_v34) (V m c main_v33) (V m c main_v35)]
  exact (Memref.read_access_unit_zero (Elt Ideal) main_v36 (off6 t) (fun a => by rw [congrFun (off6 t) a]; simp) (G m c)).symm

/-- THE RESULT ARRAY after the run is G: the one block covers it. -/
theorem arr_eq (c : Dev nD) : (dats m 0 c).arrAt 6 cfg0.N = G m c :=
  (dats m 0 c).arrAt_eq_of_cover 6 (G m c) (fun t _ => flushed_eq m c t) fun i =>
    ⟨t0_0, flush0_6 t0_0, by
      show i ∈ ((View.whole main_v36).slice (win0_6.rect t0_0)).set
      rw [View.set_slice_whole, Rect.mem_set_unit]
      intro a
      have h0 : (i 0 : Nat) < 1024 := (i 0).isLt
      match a with
      | ⟨0, _⟩ =>
        show win0_6.index t0_0 0 * 1024 ≤ (i 0 : Nat) ∧ (i 0 : Nat) < win0_6.index t0_0 0 * 1024 + 1024
        rw [show win0_6.index t0_0 0 = 0 from rfl]
        omega⟩

/-! ## The operand arrays the host made: transposes and column reshapes of the arguments -/

theorem v31_eq (c : Dev nD) : (V m c main_v31 : S64x1024.Idx → EReal)
    = transpose S64x1024 [1, 0] (m ((c.tc : Thread nD τ).loc main_arg0)) transposes_S1024x64_S64x1024_1_0 := by
  dsimp only [Gen.V, Gen.hostOps0]; after_results
theorem v32_eq (c : Dev nD) : (V m c main_v32 : S128x64.Idx → EReal)
    = transpose S128x64 [1, 0] (m ((c.tc : Thread nD τ).loc main_arg1)) transposes_S64x128_S128x64_1_0 := by
  dsimp only [Gen.V, Gen.hostOps0]; after_results
theorem v33_eq (c : Dev nD) : (V m c main_v33 : S64x128.Idx → EReal)
    = transpose S64x128 [1, 0] (m ((c.tc : Thread nD τ).loc main_arg3)) transposes_S128x64_S64x128_1_0 := by
  dsimp only [Gen.V, Gen.hostOps0]; after_results
theorem v34_eq (c : Dev nD) : (V m c main_v34 : S128x1.Idx → EReal)
    = shapeCast S128x1 (m ((c.tc : Thread nD τ).loc main_arg2)) shapeCasts_S128_S128x1 := by
  dsimp only [Gen.V, Gen.hostOps0]; after_results; rfl
theorem v35_eq (c : Dev nD) : (V m c main_v35 : S64x1.Idx → EReal)
    = shapeCast S64x1 (m ((c.tc : Thread nD τ).loc main_arg4)) shapeCasts_S64_S64x1 := by
  dsimp only [Gen.V, Gen.hostOps0]; after_results; rfl

/-- x transposed: entry (k, a) of the operand is x (a, k). -/
theorem v31_apply (c : Dev nD) (k : Fin 64) (a : Fin 1024) :
    V m c main_v31 (ix2 k a) = m ((c.tc : Thread nD τ).loc main_arg0) (ix2 a k) :=
  (congrFun (v31_eq m c) (ix2 k a)).trans
    (transpose_apply [1, 0] _ transposes_S1024x64_S64x1024_1_0 (ix2 k a) (ix2 a k) fun b => by
      match b with
      | ⟨0, _⟩ => rfl
      | ⟨1, _⟩ => rfl)

/-- W1 transposed: entry (f, k) of the operand is W1 (k, f). -/
theorem v32_apply (c : Dev nD) (f : Fin 128) (k : Fin 64) :
    V m c main_v32 (ix2 f k) = m ((c.tc : Thread nD τ).loc main_arg1) (ix2 k f) :=
  (congrFun (v32_eq m c) (ix2 f k)).trans
    (transpose_apply [1, 0] _ transposes_S64x128_S128x64_1_0 (ix2 f k) (ix2 k f) fun b => by
      match b with
      | ⟨0, _⟩ => rfl
      | ⟨1, _⟩ => rfl)

/-- W2 transposed: entry (o, f) of the operand is W2 (f, o). -/
theorem v33_apply (c : Dev nD) (o : Fin 64) (f : Fin 128) :
    V m c main_v33 (ix2 o f) = m ((c.tc : Thread nD τ).loc main_arg3) (ix2 f o) :=
  (congrFun (v33_eq m c) (ix2 o f)).trans
    (transpose_apply [1, 0] _ transposes_S128x64_S64x128_1_0 (ix2 o f) (ix2 f o) fun b => by
      match b with
      | ⟨0, _⟩ => rfl
      | ⟨1, _⟩ => rfl)

/-- b1 as a column: entry (f, 0) of the operand is b1 f (the same row-major position). -/
theorem v34_apply (c : Dev nD) (f : Fin 128) :
    V m c main_v34 (ix2 f 0) = m ((c.tc : Thread nD τ).loc main_arg2) (ix1 f) :=
  (congrFun (v34_eq m c) (ix2 f 0)).trans
    (shapeCast_apply _ shapeCasts_S128_S128x1 (ix2 f 0) (ix1 f) (by
      rw [Shape.rowMajor_val_one, Shape.rowMajor_val_two]
      show f.val = f.val * 1 + 0
      omega))

/-- b2 as a column: entry (o, 0) of the operand is b2 o. -/
theorem v35_apply (c : Dev nD) (o : Fin 64) :
    V m c main_v35 (ix2 o 0) = m ((c.tc : Thread nD τ).loc main_arg4) (ix1 o) :=
  (congrFun (v35_eq m c) (ix2 o 0)).trans
    (shapeCast_apply _ shapeCasts_S64_S64x1 (ix2 o 0) (ix1 o) (by
      rw [Shape.rowMajor_val_one, Shape.rowMajor_val_two]
      show o.val = o.val * 1 + 0
      omega))

/-! ## The result at a node -/

/-- The body's result at node n for blocks whose entries, read transposed, are given arrays. -/
theorem pay_apply_of (x0 : Vec Ideal S1024x1024 .bf16) (x1 : Vec Ideal S64x1024 .f32) (x2 : Vec Ideal S128x64 .f32)
    (x3 : Vec Ideal S128x1 .f32) (x4 : Vec Ideal S64x128 .f32) (x5 : Vec Ideal S64x1 .f32)
    (M : Fin 1024 → Fin 1024 → EReal) (x : Fin 1024 → Fin 64 → EReal) (W1 : Fin 64 → Fin 128 → EReal)
    (b1 : Fin 128 → EReal) (W2 : Fin 128 → Fin 64 → EReal) (b2 : Fin 64 → EReal)
    (h0 : ∀ a b, x0 (ix2 a b) = M a b) (h1 : ∀ a k, x1 (ix2 k a) = x a k) (h2 : ∀ k f, x2 (ix2 f k) = W1 k f)
    (h3 : ∀ f, x3 (ix2 f 0) = b1 f) (h4 : ∀ f o, x4 (ix2 o f) = W2 f o) (h5 : ∀ o, x5 (ix2 o 0) = b2 o) (n : Fin 1024) :
    k0_pay1 (F := Ideal) x0 x1 x2 x3 x4 x5 (ix1 n)
      = Cert.Gcn.kOut M x W1 b1 W2 b2 (Ideal.ofBits .f32 0x3C800000#32) n := by
  rw [pay_apply]
  simp only [h0, h1, h2, h3, h4, h5]

/-- THE KERNEL'S RESULT AT NODE n: the specification's transposed two-layer form of the arguments, through
    the dense matrix the call finds, times the constant. -/
theorem kernel_out (m : (ℓ : Loc nD τ sig) → Buf (Elt Ideal) ℓ) (c : Dev nD) (n : Fin 1024) :
    (dats m 0 c).arrAt 6 cfg0.N (ValueIdx.ix1 n)
      = Cert.Gcn.kOut (fun a b => V m c main_v30 (ValueIdx.ix2 a b))
          (fun a k => m ((c.tc : Thread nD τ).loc main_arg0) (ValueIdx.ix2 a k))
          (fun k f => m ((c.tc : Thread nD τ).loc main_arg1) (ValueIdx.ix2 k f))
          (fun f => m ((c.tc : Thread nD τ).loc main_arg2) (ValueIdx.ix1 f))
          (fun f o => m ((c.tc : Thread nD τ).loc main_arg3) (ValueIdx.ix2 f o))
          (fun o => m ((c.tc : Thread nD τ).loc main_arg4) (ValueIdx.ix1 o))
          (Ideal.ofBits .f32 0x3C800000#32) n := by
  rw [arr_eq m c]
  exact pay_apply_of (V m c main_v30) (V m c main_v31) (V m c main_v32) (V m c main_v34) (V m c main_v33) (V m c main_v35)
    _ _ _ _ _ _ (fun a b => rfl) (fun a k => v31_apply m c k a) (fun k f => v32_apply m c f k) (fun f => v34_apply m c f)
    (fun f o => v33_apply m c o f) (fun o => v35_apply m c o) n

end Cert.KernelIdeal.KValue

end
-- ==== Proof.LibScatterGather.lean ====
/-
  Three host operations read at an index, at the ideal values, for the dimension numbers jnp's
  segment sums and row lookups print: an accumulating scatter into a vector, the same into the rows
  of a matrix, and a gather of whole rows.  Each scatter entry is the operand's plus the sum of the
  updates whose (signed, unclamped) index names it; each gathered row is the operand's row at the
  index read signed and clamped into range.
-/
import Idealize.ShloMosaic.PureOps.Ideal
import Idealize.ShloMosaic.PureOps.Contract
import Idealize.ShloMosaic.Lib.ValueIdx

noncomputable section

namespace Cert.Gcn.Lib

open Idealize.ShloMosaic Idealize.ShloMosaic.ValueIdx

/-- A rank-1 index set is its one coordinate's range. -/
private def idxEquiv1 {n : Nat} : Fin n ≃ (⟨1, ![n]⟩ : Shape).Idx where
  toFun := ix1
  invFun j := j 0
  left_inv _ := rfl
  right_inv j := (eq_ix1 j).symm

section Vec
variable {N n w : Nat} (d : ScatterDims ⟨1, ![N]⟩ ⟨2, ![n, 1]⟩ ⟨1, ![n]⟩)
  (huw : d.updateWindowDims = []) (hiw : d.insertedWindowDims = [0]) (hsd : d.scatterDimsToOperandDims = [0])
  (hiv : d.indexVectorDim = 1)
include huw hiw hsd hiv

/-- The start index of update p on the one operand axis is entry (p, 0) of the index table, read signed. -/
private theorem vec_start (idx : IVec ⟨2, ![n, 1]⟩ w) (j : (⟨1, ![n]⟩ : Shape).Idx) (a : Fin 1) :
    d.start j idx a = (idx (ix2 (j 0) (0 : Fin 1))).toInt := by
  obtain rfl : a = 0 := Subsingleton.elim _ _
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    have e : ∀ X : Fin 1, (j X).val = (j 0).val := fun X => by
      obtain rfl : X = 0 := Subsingleton.elim _ _; rfl
    exact e _
  | ⟨1, _⟩ =>
    unfold ScatterDims.siIdx
    rw [dif_pos (by rw [hiv])]
    apply Fin.ext
    show List.idxOf (0 : Fin 1) d.scatterDimsToOperandDims = 0
    rw [hsd]; simp

/-- There is no window: the one operand axis is inserted. -/
private theorem vec_window (j : (⟨1, ![n]⟩ : Shape).Idx) (a : Fin 1) : d.window j a = 0 := by
  unfold ScatterDims.window
  rw [dif_neg]
  obtain rfl : a = 0 := Subsingleton.elim _ _
  simp [ScatterDims.sKept, Shape.kept, hiw]

/-- Update p lands on entry i exactly when its index, read signed, is i. -/
private theorem vec_resultIdx (idx : IVec ⟨2, ![n, 1]⟩ w) (j : (⟨1, ![n]⟩ : Shape).Idx) (i : Fin N) :
    d.resultIdx? j idx = some (ix1 i) ↔ (idx (ix2 (j 0) (0 : Fin 1))).toInt = (i.val : ℤ) := by
  have hst := vec_start d huw hiw hsd hiv idx j
  have hwi := vec_window d huw hiw hsd hiv j
  unfold ScatterDims.resultIdx?
  split
  · rename_i h
    constructor
    · intro he
      have h1 := congrArg Fin.val (congrFun (Option.some.inj he) 0)
      have h0 := (h 0).1
      rw [hst, hwi] at h0
      change (d.start j idx 0 + (d.window j 0 : ℤ)).toNat = i.val at h1
      rw [hst, hwi] at h1
      omega
    · intro he
      congr 1
      funext a
      obtain rfl : a = 0 := Subsingleton.elim _ _
      apply Fin.ext
      change (d.start j idx 0 + (d.window j 0 : ℤ)).toNat = i.val
      rw [hst, hwi, he]
      omega
  · rename_i h
    constructor
    · intro he
      cases he
    · intro he
      exfalso
      apply h
      intro a
      obtain rfl : a = 0 := Subsingleton.elim _ _
      rw [hst, hwi, he]
      have hi : i.val < N := i.isLt
      refine ⟨by omega, ?_⟩
      change ((i.val : ℤ) + ((0 : ℕ) : ℤ)) < ((N : ℕ) : ℤ)
      omega

end Vec

/-- An accumulating scatter into a VECTOR (no window axes; the one operand axis inserted and indexed by
    column 0 of the index table): entry i is the operand's plus the sum of the updates p whose index,
    read signed, is i. -/
theorem scatterAdd_vec_apply {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal) (i : Fin N) :
    Ideal.hostScatterAdd d x idx upd (ix1 i)
      = x (ix1 i) + ∑ p : Fin n, if (idx (ix2 p (0 : Fin 1))).toInt = (i.val : ℤ) then upd (ix1 p) else 0 := by
  unfold Ideal.hostScatterAdd
  congr 1
  rw [Finset.sum_filter, ← Equiv.sum_comp (idxEquiv1 (n := n))]
  refine Finset.sum_congr rfl fun p _ => ?_
  exact if_congr (vec_resultIdx d huw hiw hsd hiv idx (ix1 p) i) rfl rfl

section Rows
variable {N C n w : Nat} (d : ScatterDims ⟨2, ![N, C]⟩ ⟨2, ![n, 1]⟩ ⟨2, ![n, C]⟩)
  (huw : d.updateWindowDims = [1]) (hiw : d.insertedWindowDims = [0]) (hsd : d.scatterDimsToOperandDims = [0])
  (hiv : d.indexVectorDim = 1)
include huw hiw hsd hiv

/-- The only scatter axis of the updates is axis 0. -/
private theorem rows_uScatter (X : Fin 2) (hX : X ∈ d.uScatter) : X = 0 := by
  have h1 : X ∉ d.updateWindowDims := by
    have := hX
    simp only [ScatterDims.uScatter, Shape.kept, List.mem_filter, List.mem_finRange, true_and, decide_eq_true_eq] at this
    exact this
  rw [huw, List.mem_singleton] at h1
  match X, h1 with
  | ⟨0, _⟩, _ => rfl
  | ⟨1, _⟩, h => exact absurd rfl h

/-- The start index of update row p on operand axis 0 is entry (p, 0) of the index table, read signed. -/
private theorem rows_start0 (idx : IVec ⟨2, ![n, 1]⟩ w) (j : (⟨2, ![n, C]⟩ : Shape).Idx) :
    d.start j idx (0 : Fin 2) = (idx (ix2 (j 0) (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    have e : ∀ X : Fin 2, X ∈ d.uScatter → (j X).val = (j 0).val := fun X hX => by
      rw [rows_uScatter d huw hiw hsd hiv X hX]
    exact e _ (List.getElem_mem _)
  | ⟨1, _⟩ =>
    unfold ScatterDims.siIdx
    rw [dif_pos (by rw [hiv])]
    apply Fin.ext
    show List.idxOf (0 : Fin 2) d.scatterDimsToOperandDims = 0
    rw [hsd]; simp

/-- Operand axis 1 is not indexed: its start is 0. -/
private theorem rows_start1 (idx : IVec ⟨2, ![n, 1]⟩ w) (j : (⟨2, ![n, C]⟩ : Shape).Idx) :
    d.start j idx (1 : Fin 2) = 0 := by
  unfold ScatterDims.start
  rw [dif_neg]
  rw [hsd, List.mem_singleton]
  intro h
  exact Nat.one_ne_zero (congrArg Fin.val h)

/-- Operand axis 0 is inserted: no window coordinate. -/
private theorem rows_window0 (j : (⟨2, ![n, C]⟩ : Shape).Idx) : d.window j (0 : Fin 2) = 0 := by
  unfold ScatterDims.window
  rw [dif_neg]
  simp [ScatterDims.sKept, Shape.kept, hiw]

/-- On operand axis 1 the window coordinate is the update's column. -/
private theorem rows_window1 (j : (⟨2, ![n, C]⟩ : Shape).Idx) : d.window j (1 : Fin 2) = (j 1).val := by
  have hk : (1 : Fin 2) ∈ d.sKept := by
    simp [ScatterDims.sKept, Shape.kept, hiw]
  unfold ScatterDims.window
  rw [dif_pos hk]
  have e : ∀ X : Fin 2, X ∈ d.updateWindowDims → (j X).val = (j 1).val := fun X hX => by
    rw [huw, List.mem_singleton] at hX
    rw [hX]
  exact e _ (List.getElem_mem _)

/-- Update (p, b) lands on entry (i, c) exactly when row p's index, read signed, is i and b is c. -/
private theorem rows_resultIdx (idx : IVec ⟨2, ![n, 1]⟩ w) (j : (⟨2, ![n, C]⟩ : Shape).Idx) (i : Fin N) (c : Fin C) :
    d.resultIdx? j idx = some (ix2 i c) ↔ (idx (ix2 (j 0) (0 : Fin 1))).toInt = (i.val : ℤ) ∧ j 1 = c := by
  have hs0 := rows_start0 d huw hiw hsd hiv idx j
  have hs1 := rows_start1 d huw hiw hsd hiv idx j
  have hw0 := rows_window0 d huw hiw hsd hiv j
  have hw1 := rows_window1 d huw hiw hsd hiv j
  have hi : i.val < N := i.isLt
  have hc : c.val < C := c.isLt
  have hj1 : (j 1).val < C := idx2_lt1 j
  unfold ScatterDims.resultIdx?
  split
  · rename_i h
    constructor
    · intro he
      have hf := Option.some.inj he
      have h0 := congrArg Fin.val (congrFun hf (0 : Fin 2))
      have h1 := congrArg Fin.val (congrFun hf (1 : Fin 2))
      change (d.start j idx (0 : Fin 2) + (d.window j (0 : Fin 2) : ℤ)).toNat = i.val at h0
      change (d.start j idx (1 : Fin 2) + (d.window j (1 : Fin 2) : ℤ)).toNat = c.val at h1
      have g0 := (h (0 : Fin 2)).1
      rw [hs0, hw0] at h0 g0
      rw [hs1, hw1] at h1
      refine ⟨by omega, Fin.ext (by omega)⟩
    · rintro ⟨he, hjc⟩
      congr 1
      funext a
      match a with
      | ⟨0, _⟩ =>
        apply Fin.ext
        change (d.start j idx (0 : Fin 2) + (d.window j (0 : Fin 2) : ℤ)).toNat = i.val
        rw [hs0, hw0, he]; omega
      | ⟨1, _⟩ =>
        apply Fin.ext
        change (d.start j idx (1 : Fin 2) + (d.window j (1 : Fin 2) : ℤ)).toNat = c.val
        rw [hs1, hw1, ← hjc]; omega
  · rename_i h
    constructor
    · intro he
      cases he
    · rintro ⟨he, hjc⟩
      exfalso
      apply h
      refine Fin.forall_fin_two.2 ⟨?_, ?_⟩
      · rw [hs0, hw0, he]
        refine ⟨by omega, ?_⟩
        change ((i.val : ℤ) + ((0 : ℕ) : ℤ)) < ((N : ℕ) : ℤ)
        omega
      · rw [hs1, hw1]
        refine ⟨by omega, ?_⟩
        change ((0 : ℤ) + (((j 1).val : ℕ) : ℤ)) < ((C : ℕ) : ℤ)
        omega

end Rows

/-- An accumulating scatter of ROWS into a matrix (window axis 1 of the updates onto operand axis 1; operand
    axis 0 inserted and indexed by column 0 of the index table): entry (i, c) is the operand's plus the sum
    over the update rows p whose index, read signed, is i, of their entry c. -/
theorem scatterAdd_rows_apply {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ w) (upd : (⟨2, ![n, C]⟩ : Shape).Idx → EReal)
    (i : Fin N) (c : Fin C) :
    Ideal.hostScatterAdd d x idx upd (ix2 i c)
      = x (ix2 i c) + ∑ p : Fin n, if (idx (ix2 p (0 : Fin 1))).toInt = (i.val : ℤ) then upd (ix2 p c) else 0 := by
  unfold Ideal.hostScatterAdd
  congr 1
  rw [Finset.sum_filter, sum_idx2]
  refine Finset.sum_congr rfl fun p _ => ?_
  have hb : ∀ b : Fin C, (if d.resultIdx? (ix2 p b) idx = some (ix2 i c) then upd (ix2 p b) else 0)
      = if b = c then (if (idx (ix2 p (0 : Fin 1))).toInt = (i.val : ℤ) then upd (ix2 p b) else 0) else 0 := by
    intro b
    have hiff : d.resultIdx? (ix2 p b) idx = some (ix2 i c)
        ↔ (idx (ix2 p (0 : Fin 1))).toInt = (i.val : ℤ) ∧ b = c :=
      rows_resultIdx d huw hiw hsd hiv idx (ix2 p b) i c
    by_cases h1 : (idx (ix2 p (0 : Fin 1))).toInt = (i.val : ℤ)
    · by_cases h2 : b = c
      · rw [if_pos h2, if_pos h1, if_pos (hiff.2 ⟨h1, h2⟩)]
      · rw [if_neg h2, if_neg (fun h => h2 (hiff.1 h).2)]
    · by_cases h2 : b = c
      · rw [if_pos h2, if_neg h1, if_neg (fun h => h1 (hiff.1 h).1)]
      · rw [if_neg h2, if_neg (fun h => h2 (hiff.1 h).2)]
  rw [Finset.sum_congr rfl (fun b _ => hb b), Finset.sum_ite_eq']
  rw [if_pos (Finset.mem_univ c)]

section GatherRows
variable {N C n w : Nat} (d : GatherDims ⟨2, ![N, C]⟩ ⟨2, ![n, 1]⟩ ⟨2, ![n, C]⟩)
  (hoff : d.offsetDims = [1]) (hcoll : d.collapsedSliceDims = [0]) (hob : d.operandBatchingDims = [])
  (hsim : d.startIndexMap = [0]) (hivd : d.indexVectorDim = 1)
include hoff hcoll hob hsim hivd

/-- The only batch axis of the result is axis 0. -/
private theorem gather_batchDims (X : Fin 2) (hX : X ∈ d.batchDims) : X = 0 := by
  have h1 : X ∉ d.offsetDims := by
    have := hX
    simp only [GatherDims.batchDims, Shape.kept, List.mem_filter, List.mem_finRange, true_and, decide_eq_true_eq] at this
    exact this
  rw [hoff, List.mem_singleton] at h1
  match X, h1 with
  | ⟨0, _⟩, _ => rfl
  | ⟨1, _⟩, h => exact absurd rfl h

/-- On operand axis 0 (collapsed, start-indexed) the row read is entry (p, 0) of the index table, signed and clamped. -/
private theorem gather_coord0 (idx : IVec ⟨2, ![n, 1]⟩ w) (j : (⟨2, ![n, C]⟩ : Shape).Idx) :
    d.start j idx (0 : Fin 2) + d.batchCoord j (0 : Fin 2) + d.offCoord j (0 : Fin 2)
      = min (idx (ix2 (j 0) (0 : Fin 1))).toInt.toNat (N - 1) := by
  have hb : (0 : Fin 2) ∉ d.operandBatchingDims := by rw [hob]; exact List.not_mem_nil
  have hc : (0 : Fin 2) ∈ d.collapsedSliceDims := by rw [hcoll]; exact List.mem_singleton.mpr rfl
  have hk : (0 : Fin 2) ∉ d.sKept := fun h => ((d.mem_sKept _).1 h).1 hc
  have hm : (0 : Fin 2) ∈ d.startIndexMap := by rw [hsim]; exact List.mem_singleton.mpr rfl
  have hsl : d.sliceSizes (0 : Fin 2) = 1 := d.slice_collapsed _ hc
  rw [d.batchCoord_eq_zero j _ hb, d.offCoord_eq_zero j _ hk]
  simp only [Nat.add_zero]
  unfold GatherDims.start
  rw [dif_pos hm, hsl]
  change min _ (N - 1) = _
  congr 4
  funext b
  match b with
  | ⟨0, _⟩ =>
    unfold GatherDims.siIdx
    rw [dif_neg (by rw [hivd]; exact Nat.zero_ne_one)]
    unfold GatherDims.siCoord
    apply Fin.ext
    simp only [Fin.val_cast]
    have e : ∀ X : Fin 2, X ∈ d.batchDims → (j X).val = (j 0).val := fun X hX => by
      rw [gather_batchDims d hoff hcoll hob hsim hivd X hX]
    exact e _ (List.getElem_mem _)
  | ⟨1, _⟩ =>
    unfold GatherDims.siIdx
    rw [dif_pos (by rw [hivd])]
    apply Fin.ext
    show List.idxOf (0 : Fin 2) d.startIndexMap = 0
    rw [hsim]; simp

/-- On operand axis 1 (the offset axis, not start-indexed) the coordinate is the result's column. -/
private theorem gather_coord1 (idx : IVec ⟨2, ![n, 1]⟩ w) (j : (⟨2, ![n, C]⟩ : Shape).Idx) :
    d.start j idx (1 : Fin 2) + d.batchCoord j (1 : Fin 2) + d.offCoord j (1 : Fin 2) = (j 1).val := by
  have hb : (1 : Fin 2) ∉ d.operandBatchingDims := by rw [hob]; exact List.not_mem_nil
  have hc : (1 : Fin 2) ∉ d.collapsedSliceDims := by
    rw [hcoll, List.mem_singleton]
    intro h
    exact Nat.one_ne_zero (congrArg Fin.val h)
  have hk : (1 : Fin 2) ∈ d.sKept := (d.mem_sKept _).2 ⟨hc, hb⟩
  have hm : (1 : Fin 2) ∉ d.startIndexMap := by
    rw [hsim, List.mem_singleton]
    intro h
    exact Nat.one_ne_zero (congrArg Fin.val h)
  rw [d.batchCoord_eq_zero j _ hb, Nat.add_zero]
  unfold GatherDims.start
  rw [dif_neg hm, Nat.zero_add]
  unfold GatherDims.offCoord
  rw [dif_pos hk]
  have e : ∀ X : Fin 2, X ∈ d.offsetDims → (j X).val = (j 1).val := fun X hX => by
    rw [hoff, List.mem_singleton] at hX
    rw [hX]
  exact e _ (List.getElem_mem _)

end GatherRows

/-- A gather of whole ROWS of a matrix (operand axis 0 collapsed and start-indexed by column 0 of the index
    table, operand axis 1 the result's offset axis 1): entry (p, c) of the result is the operand's entry c
    of the row whose number is index p read signed and clamped into [0, N - 1]. -/
theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (c : Fin C) (hN : 0 < N) :
    Host.gather d x idx (ix2 p c)
      = x (ix2 (⟨min (idx (ix2 p (0 : Fin 1))).toInt.toNat (N - 1), by omega⟩ : Fin N) c) := by
  unfold Host.gather
  congr 1
  funext a
  match a with
  | ⟨0, _⟩ =>
    apply Fin.ext
    exact gather_coord0 d hoff hcoll hob hsim hivd idx (ix2 p c)
  | ⟨1, _⟩ =>
    apply Fin.ext
    exact gather_coord1 d hoff hcoll hob hsim hivd idx (ix2 p c)

end Cert.Gcn.Lib

end
-- ==== Proof.KernelAdj.lean ====
/-
  The dense matrix the kernel is given, read at an entry.

  @main scatters each edge's weight to the flattened position  source · 1024 + target  of a zero vector
  of 1024 · 1024 entries, reshapes it to a matrix and narrows it (the identity on extended reals).
  Where every edge entry is a node number the flattened position is the row-major position of
  (source node, target node), so entry (a, b) of the matrix is the sum of the weights of the edges from
  a to b: the dense adjacency of Proof/Spec.lean.  The weights are products of two values of the
  reciprocal square root at non-negative sums, hence non-negative.
-/
import proofs.«401203_j32512902431448_2_alg».proof.Proof.Gen.KernelIdeal.Frame
import proofs.«401203_j32512902431448_2_alg».proof.Proof.Spec
import proofs.«401203_j32512902431448_2_alg».proof.Proof.Edges
import proofs.«401203_j32512902431448_2_alg».proof.Proof.LibScatterGather
import Idealize.ShloMosaic.Lib.StableHlo.Run
import Idealize.ShloMosaic.Lib.Pipeline.Value
import Idealize.ShloMosaic.Lib.ValueIdx
import Idealize.ShloMosaic.PureOps.Ideal.Laws
import proofs.«401203_j32512902431448_2_alg».proof.Proof.Bridge

noncomputable section

namespace Cert.KernelIdeal.KAdj

open Cert.KernelIdeal Cert.KernelIdeal.Facts₀ Cert.KernelIdeal.Facts
open Idealize.ShloMosaic Idealize.ShloMosaic.TcCoe Idealize.SL.Sem Idealize.ShloMosaic.StableHlo
open Idealize.ShloMosaic.ValueIdx Cert.Gcn Cert.Gcn.Edges

/-! ## The host operations' terms -/

/-- A given edge list with the self loops appended. -/
def ext (v : IVec S1047552 32) : IVec S1048576 32 := withLoops v concatenates_S1047552_S1024_S1048576_d0

/-- jnp's wrap of negative indices. -/
def wrapK (u : IVec S1048576 32) : IVec S1048576 32 :=
  select (cmpi .slt u (broadcastInDim S1048576 ![] bcast_S_S1048576 (constantI S_ 32 0#32)))
    (addi u (broadcastInDim S1048576 ![] bcast_S_S1048576 (constantI S_ 32 1024#32))) u

/-- The in-degrees (self loop included) as a scatter-add of ones. -/
def degK (a6 : IVec S1047552 32) : FVec Ideal S1024 .f32 :=
  Host.scatterAdd scatter_S1024_S1048576x1_S1048576_n_0_0_1
    (broadcastInDim S1024 ![] bcast_S_S1024 (constant S_ .f32 0x00000000#32))
    (broadcastInDim S1048576x1 ![0] bcast_S1048576_S1048576x1_0 (ext a6))
    (broadcastInDim S1048576 ![] bcast_S_S1048576 (constant S_ .f32 0x3F800000#32))

/-- Each edge's weight: the reciprocal square roots of the degrees at its two ends, multiplied. -/
def wK (a5 a6 : IVec S1047552 32) : FVec Ideal S1048576 .f32 :=
  mulf
    (Host.gather gather_S1024_S1048576x1_S1048576_n_0_n_n_0_1_1 (Host.rsqrt (degK a6))
      (broadcastInDim S1048576x1 ![0] bcast_S1048576_S1048576x1_0 (wrapK (ext a5))))
    (Host.gather gather_S1024_S1048576x1_S1048576_n_0_n_n_0_1_1 (Host.rsqrt (degK a6))
      (broadcastInDim S1048576x1 ![0] bcast_S1048576_S1048576x1_0 (wrapK (ext a6))))

/-- Each edge's flattened matrix position, in 32-bit words. -/
def flatK (a5 a6 : IVec S1047552 32) : IVec S1048576 32 :=
  addi (muli (ext a5) (broadcastInDim S1048576 ![] bcast_S_S1048576 (constantI S_ 32 1024#32))) (ext a6)

/-- The flattened matrix: the weights scattered to their positions. -/
def flatMatK (a5 a6 : IVec S1047552 32) : FVec Ideal S1048576 .f32 :=
  Host.scatterAdd scatter_S1048576_S1048576x1_S1048576_n_0_0_1
    (broadcastInDim S1048576 ![] bcast_S_S1048576 (constant S_ .f32 0x00000000#32))
    (broadcastInDim S1048576x1 ![0] bcast_S1048576_S1048576x1_0 (flatK a5 a6))
    (wK a5 a6)

/-- The matrix the pallas_call is given. -/
def matK (a5 a6 : IVec S1047552 32) : FVec Ideal S1024x1024 .bf16 :=
  truncf .bf16 (shapeCast S1024x1024 (flatMatK a5 a6) shapeCasts_S1048576_S1024x1024) bitsLt_bf16_f32

/-! ## Three operations at an index, over arbitrary operands -/

/-- A gather reads the operand at the index the dimension numbers compute. -/
theorem gather_eq {s si t : Shape} {w : Nat} (d : GatherDims s si t) (x : s.Idx → EReal) (idx : IVec si w) (j : t.Idx) :
    Host.gather d x idx j = x (d.operandIdx j idx) := rfl

/-- The host's reciprocal square root is pointwise. -/
theorem hostRsqrt_apply {s : Shape} (x : FVec Ideal s .f32) (i : s.Idx) :
    (Host.rsqrt x : FVec Ideal s .f32) i = Ideal.rsqrt (x i) := rfl

/-- The host's accumulating scatter at the ideal values. -/
theorem scatterAdd_eq {s si su : Shape} {w : Nat} (d : ScatterDims s si su) (x : FVec Ideal s .f32) (idx : IVec si w)
    (upd : FVec Ideal su .f32) : Host.scatterAdd d x idx upd = Ideal.hostScatterAdd d x idx upd := rfl

/-- An accumulating scatter of non-negative updates onto a non-negative operand is non-negative. -/
theorem scatterAdd_nonneg {s si su : Shape} {w : Nat} (d : ScatterDims s si su) (x : FVec Ideal s .f32) (idx : IVec si w)
    (upd : FVec Ideal su .f32) (hx : ∀ i, 0 ≤ x i) (hu : ∀ j, 0 ≤ upd j) (i : s.Idx) :
    0 ≤ Host.scatterAdd d x idx upd i := by
  rw [scatterAdd_eq]
  unfold Ideal.hostScatterAdd
  exact add_nonneg (hx i) (Finset.sum_nonneg fun j _ => hu j)

/-- A splat of the zero word is the zero array. -/
theorem zeros_apply {t : Shape} (h : S_.BroadcastsInDim t (![] : Fin 0 → Fin t.rank)) (j : t.Idx) :
    (broadcastInDim t ![] h (constant (F := Ideal) S_ .f32 0x00000000#32)) j = 0 := by
  show Ideal.ofBits .f32 0x00000000#32 = 0
  exact Ideal.ofBits_zero_f32

/-- A splat of the word of 1.0 is the array of ones. -/
theorem ones_apply {t : Shape} (h : S_.BroadcastsInDim t (![] : Fin 0 → Fin t.rank)) (j : t.Idx) :
    (broadcastInDim t ![] h (constant (F := Ideal) S_ .f32 0x3F800000#32)) j = 1 := by
  show Ideal.ofBits .f32 0x3F800000#32 = 1
  exact Cert.Gcn.ofBits_one

/-! ## The matrix at an entry -/

/-- Entry (a, b) of the matrix is the sum of the weights of the edges from a to b. -/
theorem matK_apply (a5 a6 : IVec S1047552 32) (h5 : InRange a5) (h6 : InRange a6) (a b : Fin 1024) :
    matK a5 a6 (ix2 a b) = adj (node (ext a5)) (node (ext a6)) (fun e => wK a5 a6 (ix1 e)) a b := by
  have hs : Ranged (ext a5) := withLoops_ranged h5 _
  have hd : Ranged (ext a6) := withLoops_ranged h6 _
  have hlt : a.val * 1024 + b.val < 1048576 := by have := a.isLt; have := b.isLt; omega
  unfold matK
  rw [truncf_apply]
  rw [shapeCast_apply (flatMatK a5 a6) shapeCasts_S1048576_S1024x1024 (ix2 a b)
    (ix1 (⟨a.val * 1024 + b.val, hlt⟩ : Fin 1048576)) (by
      rw [Shape.rowMajor_val_one, Shape.rowMajor_val_two]; rfl)]
  unfold flatMatK
  rw [scatterAdd_eq, Cert.Gcn.Lib.scatterAdd_vec_apply _ rfl rfl rfl rfl, zeros_apply, zero_add]
  unfold adj
  refine Finset.sum_congr rfl fun e _ => ?_
  rw [col_apply (flatK a5 a6) bcast_S1048576_S1048576x1_0 e]
  have hf := flat_eq hs hd bcast_S_S1048576 e
  unfold flatK
  rw [hf]
  have hsn := (node (ext a5) e).isLt
  have hdn := (node (ext a6) e).isLt
  have hb := b.isLt
  by_cases hc : node (ext a5) e = a ∧ node (ext a6) e = b
  · rw [if_pos hc, if_pos (by rw [hc.1, hc.2])]
  · rw [if_neg hc, if_neg]
    intro h
    apply hc
    have h' : (node (ext a5) e).val * 1024 + (node (ext a6) e).val = a.val * 1024 + b.val := by exact_mod_cast h
    exact ⟨Fin.ext (by omega), Fin.ext (by omega)⟩

/-! ## The weights are non-negative -/

/-- The reciprocal square root of a non-negative extended real is non-negative. -/
theorem rsqrt_nonneg {y : EReal} (hy : 0 ≤ y) : 0 ≤ Ideal.rsqrt y := by
  induction y using EReal.rec with
  | bot => exact absurd hy (by simp)
  | top => exact le_rfl
  | coe r =>
    have hr : 0 ≤ r := by exact_mod_cast hy
    show 0 ≤ (if r < 0 then (⊥ : EReal) else if r = 0 then ⊤ else (((Real.sqrt r)⁻¹ : ℝ) : EReal))
    rw [if_neg (not_lt.2 hr)]
    split_ifs
    · exact le_top
    · exact_mod_cast inv_nonneg.2 (Real.sqrt_nonneg r)

/-- A degree is a sum of ones onto zero. -/
theorem degK_nonneg (a6 : IVec S1047552 32) (i : S1024.Idx) : 0 ≤ degK a6 i := by
  unfold degK
  exact scatterAdd_nonneg _ _ _ _ (fun i => by rw [zeros_apply]) (fun j => by rw [ones_apply]; exact zero_le_one) i

/-- Every edge's weight is non-negative. -/
theorem wK_nonneg (a5 a6 : IVec S1047552 32) (j : S1048576.Idx) : 0 ≤ wK a5 a6 j := by
  unfold wK
  rw [mulf_apply, gather_eq, gather_eq, hostRsqrt_apply, hostRsqrt_apply]
  exact EReal.mul_nonneg (rsqrt_nonneg (degK_nonneg a6 _)) (rsqrt_nonneg (degK_nonneg a6 _))

end Cert.KernelIdeal.KAdj

end
-- ==== Proof.KernelAdjV.lean ====
/-
  The matrix operand of the pallas_call is the host operations' term: @main's operations before the
  region, read back at that buffer.
-/
import proofs.«401203_j32512902431448_2_alg».proof.Proof.KernelAdj

noncomputable section

namespace Cert.KernelIdeal.KAdj

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 4000000 in
set_option maxRecDepth 8192 in
/-- The pallas_call's matrix operand, as the host operations before the region leave it. -/
theorem V_main_v30 (c : Dev nD) :
    (V m c main_v30 : S1024x1024.Idx → EReal)
      = matK (m ((c.tc : Thread nD τ).loc main_arg5)) (m ((c.tc : Thread nD τ).loc main_arg6)) := by
  show StableHlo.after hostOps0 (fun b => m (c, b)) (Proc.devRef .tc main_v30) = _
  unfold hostOps0
  after_results_simp
  rfl

end Cert.KernelIdeal.KAdj

end
-- ==== Proof.Weights.lean ====
/-
  Both programs compute each edge's weight by the same operations on the same two lists: the kernel's
  host prefix and the reference spell one term.
-/
import proofs.«401203_j32512902431448_2_alg».proof.Proof.KernelAdj
import proofs.«401203_j32512902431448_2_alg».proof.Proof.Gen.ReferenceIdeal.Read

noncomputable section

namespace Cert.Gcn.Weights

open Idealize.ShloMosaic

/-- The kernel's weights are the reference's. -/
theorem wK_eq (a5 a6 : IVec Cert.KernelIdeal.S1047552 32) :
    Cert.KernelIdeal.KAdj.wK a5 a6 = Cert.ReferenceIdeal.Read.val_main_v23 (F := Ideal) a5 a6 := by
  unfold Cert.KernelIdeal.KAdj.wK Cert.KernelIdeal.KAdj.degK Cert.KernelIdeal.KAdj.wrapK Cert.KernelIdeal.KAdj.ext
    Cert.Gcn.Edges.withLoops
  unfold Cert.ReferenceIdeal.Read.val_main_v23 Cert.ReferenceIdeal.Read.val_main_v15 Cert.ReferenceIdeal.Read.val_main_v22
    Cert.ReferenceIdeal.Read.val_main_v8 Cert.ReferenceIdeal.Read.val_main_v7 Cert.ReferenceIdeal.Read.val_main_v14
    Cert.ReferenceIdeal.Read.val_main_v21 Cert.ReferenceIdeal.Read.val_main_v13 Cert.ReferenceIdeal.Read.val_main_v20
    Cert.ReferenceIdeal.Read.val_main_v10 Cert.ReferenceIdeal.Read.val_main_v12 Cert.ReferenceIdeal.Read.val_main_v17
    Cert.ReferenceIdeal.Read.val_main_v19 Cert.ReferenceIdeal.Read.val_main_v9 Cert.ReferenceIdeal.Read.val_main_v11
    Cert.ReferenceIdeal.Read.val_main_v16 Cert.ReferenceIdeal.Read.val_main_v18 Cert.ReferenceIdeal.Read.val_main_v6
    Cert.ReferenceIdeal.Read.val_main_v5 Cert.ReferenceIdeal.Read.val_main_v4 Cert.ReferenceIdeal.Read.val_main_v2
    Cert.ReferenceIdeal.Read.val_main_v3 Cert.ReferenceIdeal.Read.val_main_v1 Cert.ReferenceIdeal.Read.val_main_c
    Cert.ReferenceIdeal.Read.val_main_c_1 Cert.ReferenceIdeal.Read.val_main_c_2 Cert.ReferenceIdeal.Read.val_main_c_3
    Cert.ReferenceIdeal.Read.val_main_cst Cert.ReferenceIdeal.Read.val_main_cst_0
  rfl

end Cert.Gcn.Weights

end
-- ==== Proof.RefValue.lean ====
/-
  The value of the idealized reference, read one operation at a time.

  The reference is a two-layer graph convolution computed edge by edge.  With s e and d e the source and
  target node of edge e of the extended lists (the given edges followed by one self loop per node) and
  w e the edge's weight, one layer gathers the rows g (s e) of the node features, scales row e by w e and
  adds it into row d e of a zero matrix; a bias and a rectifier follow.  The result is the sum over the
  64 features of the second layer divided by 64.  Each stage below is the printed operation read at an
  index; together they are Cert.Gcn.rOut.
-/
import proofs.«401203_j32512902431448_2_alg».proof.Proof.Gen.ReferenceIdeal.Read
import proofs.«401203_j32512902431448_2_alg».proof.Proof.Spec
import proofs.«401203_j32512902431448_2_alg».proof.Proof.LibScatterGather
import proofs.«401203_j32512902431448_2_alg».proof.Proof.Edges

noncomputable section

namespace Cert.ReferenceIdeal.RValue

open Cert.ReferenceIdeal Cert.ReferenceIdeal.Gen Cert.ReferenceIdeal.Read Idealize.ShloMosaic Idealize.ShloMosaic.ValueIdx
open Cert.Gcn

/-! ## The edge lists -/

/-- The extended source list is the given one followed by the self loops. -/
theorem srcF_eq (x5 : IVec S1047552 32) :
    val_main_v2 (F := Ideal) x5 = Edges.withLoops x5 concatenates_S1047552_S1024_S1048576_d0 := rfl

/-- The extended target list likewise. -/
theorem dstF_eq (x6 : IVec S1047552 32) :
    val_main_v3 (F := Ideal) x6 = Edges.withLoops x6 concatenates_S1047552_S1024_S1048576_d0 := rfl

theorem srcF_ranged {x5 : IVec S1047552 32} (h5 : Edges.InRange x5) : Edges.Ranged (val_main_v2 (F := Ideal) x5) := by
  rw [srcF_eq]; exact Edges.withLoops_ranged h5 _

theorem dstF_ranged {x6 : IVec S1047552 32} (h6 : Edges.InRange x6) : Edges.Ranged (val_main_v3 (F := Ideal) x6) := by
  rw [dstF_eq]; exact Edges.withLoops_ranged h6 _

/-- The wrap of negative entries leaves the source list as it is (first layer's row lookup). -/
theorem v28_eq {x5 : IVec S1047552 32} (h5 : Edges.InRange x5) :
    val_main_v28 (F := Ideal) x5 = val_main_v2 (F := Ideal) x5 :=
  Edges.wrap_eq (srcF_ranged h5) bcast_S_S1048576

/-- The same for the second layer's row lookup. -/
theorem v69_eq {x5 : IVec S1047552 32} (h5 : Edges.InRange x5) :
    val_main_v69 (F := Ideal) x5 = val_main_v2 (F := Ideal) x5 :=
  Edges.wrap_eq (srcF_ranged h5) bcast_S_S1048576

/-- The second layer recomputes the edge weights by the same operations. -/
theorem v64_eq (x5 x6 : IVec S1047552 32) : val_main_v64 (F := Ideal) x5 x6 = val_main_v23 (F := Ideal) x5 x6 := rfl

/-- The second layer's target list is the first's. -/
theorem v44_eq (x6 : IVec S1047552 32) : val_main_v44 (F := Ideal) x6 = val_main_v3 (F := Ideal) x6 := rfl

/-! ## A row lookup and a row accumulation by a list of node numbers -/

/-- Looking rows up by the one-column table of a list of node numbers reads, in row e, the row of the node the list's
    entry e names: the clamp into the 1024 rows changes nothing. -/
theorem rowGather {C : Nat} (d : GatherDims ⟨2, ![1024, C]⟩ ⟨2, ![1048576, 1]⟩ ⟨2, ![1048576, C]⟩)
    (hoff : d.offsetDims = [1]) (hcoll : d.collapsedSliceDims = [0]) (hob : d.operandBatchingDims = [])
    (hsim : d.startIndexMap = [0]) (hivd : d.indexVectorDim = 1)
    (g : FVec Ideal ⟨2, ![1024, C]⟩ .f32) {u : IVec S1048576 32} (hu : Edges.Ranged u) (e : Fin E) (c : Fin C) :
    Host.gather d g (broadcastInDim S1048576x1 ![0] bcast_S1048576_S1048576x1_0 u) (ix2 e c)
      = g (ix2 (Edges.node u e) c) := by
  rw [Lib.gather_rows_apply d hoff hcoll hob hsim hivd g _ e c (by norm_num)]
  refine congrArg (fun r => g (ix2 r c)) (Fin.ext ?_)
  show min ((broadcastInDim S1048576x1 ![0] bcast_S1048576_S1048576x1_0 u) (ix2 e (0 : Fin 1))).toInt.toNat (1024 - 1) = _
  rw [Edges.col_apply u bcast_S1048576_S1048576x1_0 e]
  exact Edges.clamp_eq hu e

/-- Adding rows into a matrix by the one-column table of a list of node numbers: row n receives the update rows e
    whose entry names n. -/
theorem rowScatter {C : Nat} (d : ScatterDims ⟨2, ![1024, C]⟩ ⟨2, ![1048576, 1]⟩ ⟨2, ![1048576, C]⟩)
    (huw : d.updateWindowDims = [1]) (hiw : d.insertedWindowDims = [0]) (hsd : d.scatterDimsToOperandDims = [0])
    (hiv : d.indexVectorDim = 1)
    (z : FVec Ideal ⟨2, ![1024, C]⟩ .f32) (upd : FVec Ideal ⟨2, ![1048576, C]⟩ .f32) {u : IVec S1048576 32}
    (hu : Edges.Ranged u) (n : Fin 1024) (c : Fin C) :
    Host.scatterAdd d z (broadcastInDim S1048576x1 ![0] bcast_S1048576_S1048576x1_0 u) upd (ix2 n c)
      = z (ix2 n c) + ∑ e : Fin E, if Edges.node u e = n then upd (ix2 e c) else 0 := by
  show Ideal.hostScatterAdd d z _ upd (ix2 n c) = _
  rw [Lib.scatterAdd_rows_apply d huw hiw hsd hiv z _ upd n c]
  refine congrArg (z (ix2 n c) + ·) (Finset.sum_congr rfl fun e _ => ?_)
  rw [Edges.col_apply u bcast_S1048576_S1048576x1_0 e, Edges.toInt_eq_node hu e]
  exact if_congr (Int.ofNat_inj.trans Fin.val_inj) rfl rfl

section Layers

variable (x0 : FVec Ideal S1024x64 .f32) (x1 : FVec Ideal S64x128 .f32) (x2 : FVec Ideal S128 .f32)
  (x3 : FVec Ideal S128x64 .f32) (x4 : FVec Ideal S64 .f32) (x5 x6 : IVec S1047552 32)

/-- The source node of an edge. -/
abbrev sN : Fin E → Fin 1024 := Edges.node (val_main_v2 (F := Ideal) x5)
/-- The target node of an edge. -/
abbrev dN : Fin E → Fin 1024 := Edges.node (val_main_v3 (F := Ideal) x6)
/-- The weight of an edge. -/
abbrev wE : Fin E → EReal := fun e => val_main_v23 (F := Ideal) x5 x6 (ix1 e)
/-- The node features, the two weight matrices and the two biases over plain indices. -/
abbrev X : Fin 1024 → Fin 64 → EReal := fun a k => x0 (ix2 a k)
abbrev W1 : Fin 64 → Fin 128 → EReal := fun k f => x1 (ix2 k f)
abbrev B1 : Fin 128 → EReal := fun f => x2 (ix1 f)
abbrev W2 : Fin 128 → Fin 64 → EReal := fun f o => x3 (ix2 f o)
abbrev B2 : Fin 64 → EReal := fun o => x4 (ix1 o)

/-! ## The first layer -/

/-- The first linear map at (a, f). -/
theorem lin1 (a : Fin 1024) (f : Fin 128) :
    val_main_v0 (F := Ideal) x0 x1 (ix2 a f) = rLin1 (X x0) (W1 x1) a f := by
  rw [val_main_v0_apply]
  unfold rLin1
  refine Finset.sum_congr rfl fun k _ => ?_
  have hl : lidx_main_v0 (ix2 a f) k = ix2 a k := funext fun t => by match t with | ⟨0, _⟩ => rfl | ⟨1, _⟩ => rfl
  have hr : ridx_main_v0 (ix2 a f) k = ix2 k f := funext fun t => by match t with | ⟨0, _⟩ => rfl | ⟨1, _⟩ => rfl
  rw [hl, hr]

/-- Row e of the first lookup is the first linear map's row of the edge's source node. -/
theorem v30_at {x5 : IVec S1047552 32} (h5 : Edges.InRange x5) (e : Fin E) (f : Fin 128) :
    val_main_v30 (F := Ideal) x0 x1 x5 (ix2 e f) = val_main_v0 (F := Ideal) x0 x1 (ix2 (sN x5 e) f) := by
  unfold val_main_v30 val_main_v29
  rw [v28_eq h5]
  exact rowGather _ rfl rfl rfl rfl rfl _ (srcF_ranged h5) e f

/-- The scaled row: entry (e, f) is the looked-up entry times the weight of edge e. -/
theorem v33_at (e : Fin E) (f : Fin 128) :
    val_main_v33 (F := Ideal) x0 x1 x5 x6 (ix2 e f)
      = val_main_v30 (F := Ideal) x0 x1 x5 (ix2 e f) * wE x5 x6 e := by
  rw [val_main_v33_apply, val_main_v32_apply, val_main_v31_apply]
  have hi : idx_main_v31 (idx_main_v32 (ix2 e f)) = ix1 e := funext fun t => by match t with | ⟨0, _⟩ => rfl
  rw [hi]; rfl

/-- The first accumulation at (n, f). -/
theorem v36_at {x5 x6 : IVec S1047552 32} (h5 : Edges.InRange x5) (h6 : Edges.InRange x6) (n : Fin 1024) (f : Fin 128) :
    val_main_v36 (F := Ideal) x0 x1 x5 x6 (ix2 n f)
      = 0 + ∑ e : Fin E, if dN x6 e = n then rLin1 (X x0) (W1 x1) (sN x5 e) f * wE x5 x6 e else 0 := by
  unfold val_main_v36 val_main_v35
  rw [rowScatter _ rfl rfl rfl rfl _ _ (dstF_ranged h6) n f, val_main_v34_apply, val_main_cst_6_apply]
  show Ideal.ofBits .f32 0x00000000#32 + _ = _
  rw [Ideal.ofBits_zero_f32]
  refine congrArg (0 + ·) (Finset.sum_congr rfl fun e _ => ?_)
  rw [v33_at, v30_at x0 x1 h5, lin1]

/-- The first layer's activation at (n, f). -/
theorem act1 {x5 x6 : IVec S1047552 32} (h5 : Edges.InRange x5) (h6 : Edges.InRange x6) (n : Fin 1024) (f : Fin 128) :
    val_main_v40 (F := Ideal) x0 x1 x2 x5 x6 (ix2 n f)
      = rAct1 (sN x5) (dN x6) (wE x5 x6) (X x0) (W1 x1) (B1 x2) n f := by
  rw [val_main_v40_apply, val_main_v39_apply, val_main_v38_apply, val_main_v37_apply, val_main_call0_v0_apply,
    val_main_call0_cst_apply, v36_at x0 x1 h5 h6]
  have hi : idx_main_v37 (idx_main_v38 (ix2 n f)) = ix1 f := funext fun t => by match t with | ⟨0, _⟩ => rfl
  rw [hi]
  show max (_ + _) (Ideal.ofBits .f32 0x00000000#32) = _
  rw [Ideal.ofBits_zero_f32]
  rfl

/-! ## The second layer -/

/-- The second linear map at (a, o). -/
theorem lin2 {x5 x6 : IVec S1047552 32} (h5 : Edges.InRange x5) (h6 : Edges.InRange x6) (a : Fin 1024) (o : Fin 64) :
    val_main_v41 (F := Ideal) x0 x1 x2 x3 x5 x6 (ix2 a o)
      = rLin2 (sN x5) (dN x6) (wE x5 x6) (X x0) (W1 x1) (B1 x2) (W2 x3) a o := by
  rw [val_main_v41_apply]
  unfold rLin2
  refine Finset.sum_congr rfl fun k _ => ?_
  have hl : lidx_main_v41 (ix2 a o) k = ix2 a k := funext fun t => by match t with | ⟨0, _⟩ => rfl | ⟨1, _⟩ => rfl
  have hr : ridx_main_v41 (ix2 a o) k = ix2 k o := funext fun t => by match t with | ⟨0, _⟩ => rfl | ⟨1, _⟩ => rfl
  rw [hl, hr, act1 x0 x1 x2 h5 h6]

/-- Row e of the second lookup is the second linear map's row of the edge's source node. -/
theorem v71_at {x5 : IVec S1047552 32} (h5 : Edges.InRange x5) (e : Fin E) (o : Fin 64) :
    val_main_v71 (F := Ideal) x0 x1 x2 x3 x5 x6 (ix2 e o)
      = val_main_v41 (F := Ideal) x0 x1 x2 x3 x5 x6 (ix2 (sN x5 e) o) := by
  unfold val_main_v71 val_main_v70
  rw [v69_eq h5]
  exact rowGather _ rfl rfl rfl rfl rfl _ (srcF_ranged h5) e o

/-- The scaled row of the second layer. -/
theorem v74_at (e : Fin E) (o : Fin 64) :
    val_main_v74 (F := Ideal) x0 x1 x2 x3 x5 x6 (ix2 e o)
      = val_main_v71 (F := Ideal) x0 x1 x2 x3 x5 x6 (ix2 e o) * wE x5 x6 e := by
  rw [val_main_v74_apply, val_main_v73_apply, val_main_v72_apply, v64_eq]
  have hi : idx_main_v72 (idx_main_v73 (ix2 e o)) = ix1 e := funext fun t => by match t with | ⟨0, _⟩ => rfl
  rw [hi]; rfl

/-- The second accumulation at (n, o). -/
theorem v77_at {x5 x6 : IVec S1047552 32} (h5 : Edges.InRange x5) (h6 : Edges.InRange x6) (n : Fin 1024) (o : Fin 64) :
    val_main_v77 (F := Ideal) x0 x1 x2 x3 x5 x6 (ix2 n o)
      = 0 + ∑ e : Fin E, if dN x6 e = n
          then rLin2 (sN x5) (dN x6) (wE x5 x6) (X x0) (W1 x1) (B1 x2) (W2 x3) (sN x5 e) o * wE x5 x6 e else 0 := by
  unfold val_main_v77 val_main_v76
  rw [v44_eq, rowScatter _ rfl rfl rfl rfl _ _ (dstF_ranged h6) n o, val_main_v75_apply, val_main_cst_15_apply]
  show Ideal.ofBits .f32 0x00000000#32 + _ = _
  rw [Ideal.ofBits_zero_f32]
  refine congrArg (0 + ·) (Finset.sum_congr rfl fun e _ => ?_)
  rw [v74_at, v71_at x0 x1 x2 x3 x6 h5, lin2 x0 x1 x2 x3 h5 h6]

/-- The second layer's activation at (n, o). -/
theorem act2 {x5 x6 : IVec S1047552 32} (h5 : Edges.InRange x5) (h6 : Edges.InRange x6) (n : Fin 1024) (o : Fin 64) :
    val_main_v81 (F := Ideal) x0 x1 x2 x3 x4 x5 x6 (ix2 n o)
      = rAct2 (sN x5) (dN x6) (wE x5 x6) (X x0) (W1 x1) (B1 x2) (W2 x3) (B2 x4) n o := by
  rw [val_main_v81_apply, val_main_v80_apply, val_main_v79_apply, val_main_v78_apply, val_main_call1_v0_apply,
    val_main_call1_cst_apply, v77_at x0 x1 x2 x3 h5 h6]
  have hi : idx_main_v78 (idx_main_v79 (ix2 n o)) = ix1 o := funext fun t => by match t with | ⟨0, _⟩ => rfl
  rw [hi]
  show max (_ + _) (Ideal.ofBits .f32 0x00000000#32) = _
  rw [Ideal.ofBits_zero_f32]
  rfl

end Layers

/-! ## The result -/

/-- The reference's result at node n is the edge-by-edge form of the two-layer convolution. -/
theorem ref_out (x0 : FVec Ideal S1024x64 .f32) (x1 : FVec Ideal S64x128 .f32) (x2 : FVec Ideal S128 .f32)
    (x3 : FVec Ideal S128x64 .f32) (x4 : FVec Ideal S64 .f32) (x5 x6 : IVec S1047552 32)
    (h5 : Cert.Gcn.Edges.InRange x5) (h6 : Cert.Gcn.Edges.InRange x6) (n : Fin 1024) :
    Cert.ReferenceIdeal.Read.val_main_v84 (F := Ideal) x0 x1 x2 x3 x4 x5 x6 (ValueIdx.ix1 n)
      = Cert.Gcn.rOut (Cert.Gcn.Edges.node (Cert.Gcn.Edges.withLoops x5 concatenates_S1047552_S1024_S1048576_d0))
          (Cert.Gcn.Edges.node (Cert.Gcn.Edges.withLoops x6 concatenates_S1047552_S1024_S1048576_d0))
          (fun e => Cert.ReferenceIdeal.Read.val_main_v23 (F := Ideal) x5 x6 (ValueIdx.ix1 e))
          (fun a k => x0 (ValueIdx.ix2 a k)) (fun k f => x1 (ValueIdx.ix2 k f)) (fun f => x2 (ValueIdx.ix1 f))
          (fun f o => x3 (ValueIdx.ix2 f o)) (fun o => x4 (ValueIdx.ix1 o)) (Ideal.ofBits .f32 0x42800000#32) n := by
  show _ = rOut (sN x5) (dN x6) (wE x5 x6) (X x0) (W1 x1) (B1 x2) (W2 x3) (B2 x4) (Ideal.ofBits .f32 0x42800000#32) n
  rw [val_main_v84_apply, val_main_v82_apply, val_main_v83_apply, val_main_cst_17_apply, val_main_cst_16_apply]
  show Ideal.div (Ideal.ofBits .f32 0x00000000#32 + _) (Ideal.ofBits .f32 0x42800000#32) = _
  rw [Ideal.ofBits_zero_f32]
  unfold rOut
  refine congrArg (fun t => Ideal.div (0 + t) (Ideal.ofBits .f32 0x42800000#32)) (Finset.sum_congr rfl fun o _ => ?_)
  have hi : idx_main_v82 (ix1 n) o = ix2 n o := funext fun t => by match t with | ⟨0, _⟩ => rfl | ⟨1, _⟩ => rfl
  rw [hi]
  exact act2 x0 x1 x2 x3 x4 h5 h6 n o

end Cert.ReferenceIdeal.RValue

end
-- ==== Proof.lean ====
/-
  The certificate of a two-layer graph convolution (1024 nodes, 64 → 128 → 64 features, the mean over
  the output features) computed two ways.

  The reference works edge by edge: it appends a self loop per node to the edge lists, weights edge e by
  rsqrt(deg (s e)) · rsqrt(deg (d e)), and in each layer gathers the source rows of x·W, scales them by
  the weights and adds them into the target rows, then adds the bias and rectifies.  The kernel first
  scatters the weights into the dense 1024 × 1024 matrix M (a, b) = Σ_{e : s e = a ∧ d e = b} w e at the
  flattened position s·1024 + d, and its one pallas_call computes, transposed, relu ((W1ᵀ xᵀ) M + b1),
  relu ((W2ᵀ ·) M + b2), the sum over features and a product with 1/64.

  The claim is stated where every entry of the two edge lists is a node number (0 ≤ · < 1024): outside
  that range the flattened position of an edge names another edge's matrix entry, or leaves the matrix
  while the reference still counts the edge.  On that domain both programs compute the same extended
  reals, index by index (Proof/Bridge.lean): the weights are non-negative, so a feature distributes over
  a matrix entry's sum of weights whatever its value, and summing over the source node and then over the
  edges between two nodes is summing over the edges into the target; 1/64 and 64 are exact.  No finiteness
  of the float inputs is used.

  Proof/Spec.lean states the two forms; Proof/KernelValue*.lean read the pallas_call's result off the
  generated frame run, Proof/KernelAdj*.lean the matrix operand, Proof/RefValue.lean the reference's
  generated run; Proof/LibScatterGather.lean and Proof/Edges.lean hold the scatters, the row gather and
  the index words; Proof/PreDecode.lean reads the precondition.
-/
import proofs.«401203_j32512902431448_2_alg».proof.Defs
import proofs.«401203_j32512902431448_2_alg».proof.Proof.Gen.Kernel
import proofs.«401203_j32512902431448_2_alg».proof.Proof.Gen.Kernel.Skeleton
import proofs.«401203_j32512902431448_2_alg».proof.Proof.Gen.Kernel.Launch
import proofs.«401203_j32512902431448_2_alg».proof.Proof.Gen.Kernel.Points
import proofs.«401203_j32512902431448_2_alg».proof.Proof.Gen.Kernel.Frame
import proofs.«401203_j32512902431448_2_alg».proof.Proof.Gen.KernelIdeal
import proofs.«401203_j32512902431448_2_alg».proof.Proof.Gen.KernelIdeal.Skeleton
import proofs.«401203_j32512902431448_2_alg».proof.Proof.Gen.KernelIdeal.Launch
import proofs.«401203_j32512902431448_2_alg».proof.Proof.Gen.KernelIdeal.Points
import proofs.«401203_j32512902431448_2_alg».proof.Proof.Gen.KernelIdeal.Frame
import proofs.«401203_j32512902431448_2_alg».proof.Proof.Gen.ReferenceIdeal
import proofs.«401203_j32512902431448_2_alg».proof.Proof.Gen.Pre_finite_inputs
import proofs.«401203_j32512902431448_2_alg».proof.Proof.Gen.KernelIdeal.Value
import proofs.«401203_j32512902431448_2_alg».proof.Proof.Gen.ReferenceIdeal.Run
import proofs.«401203_j32512902431448_2_alg».proof.Proof.Gen.ReferenceIdeal.Read
import proofs.«401203_j32512902431448_2_alg».proof.Proof.Spec
import proofs.«401203_j32512902431448_2_alg».proof.Proof.Bridge
import proofs.«401203_j32512902431448_2_alg».proof.Proof.PreDecode
import proofs.«401203_j32512902431448_2_alg».proof.Proof.KernelValue
import proofs.«401203_j32512902431448_2_alg».proof.Proof.KernelAdjV
import proofs.«401203_j32512902431448_2_alg».proof.Proof.Weights
import proofs.«401203_j32512902431448_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On arguments that agree and whose edge lists hold node numbers, the reference's result array is the
    kernel's: index by index the edge-by-edge form and the dense form of the convolution. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v84 (F := Ideal) m' c
      = (Cert.KernelIdeal.Gen.dats m 0 c).arrAt 6 Cert.KernelIdeal.cfg0.N := by
  rw [Cert.ReferenceIdeal.Read.val_main_v84_eq, h0, h1, h2, h3, h4, h5, h6]
  obtain ⟨r5, r6⟩ := Cert.Gcn.PreDecode.ranges_of_pre _ _ _ _ _ _ _ (hpre c)
  funext i
  rw [eq_ix1 i]
  refine (Cert.ReferenceIdeal.RValue.ref_out _ _ _ _ _ _ _ r5 r6 (i 0)).trans ?_
  refine Eq.trans ?_ (Cert.KernelIdeal.KValue.kernel_out m c (i 0)).symm
  rw [← Cert.Gcn.Weights.wK_eq]
  refine (Cert.Gcn.kOut_eq_rOut _ _ _ _ _ _ _ _ (fun e => Cert.KernelIdeal.KAdj.wK_nonneg _ _ _) (i 0)).symm.trans ?_
  have hM : (fun a b : Fin 1024 => (Cert.KernelIdeal.Gen.V m c Cert.KernelIdeal.main_v30 : Cert.KernelIdeal.S1024x1024.Idx → EReal) (ix2 a b))
      = Cert.Gcn.adj
          (Cert.Gcn.Edges.node (Cert.Gcn.Edges.withLoops (m ((c.tc : Thread Cert.KernelIdeal.nD Cert.KernelIdeal.τ).loc Cert.KernelIdeal.main_arg5)) Cert.ReferenceIdeal.Gen.concatenates_S1047552_S1024_S1048576_d0))
          (Cert.Gcn.Edges.node (Cert.Gcn.Edges.withLoops (m ((c.tc : Thread Cert.KernelIdeal.nD Cert.KernelIdeal.τ).loc Cert.KernelIdeal.main_arg6)) Cert.ReferenceIdeal.Gen.concatenates_S1047552_S1024_S1048576_d0))
          (fun e => Cert.KernelIdeal.KAdj.wK (m ((c.tc : Thread Cert.KernelIdeal.nD Cert.KernelIdeal.τ).loc Cert.KernelIdeal.main_arg5))
            (m ((c.tc : Thread Cert.KernelIdeal.nD Cert.KernelIdeal.τ).loc Cert.KernelIdeal.main_arg6)) (ix1 e)) := by
    funext a b
    rw [Cert.KernelIdeal.KAdj.V_main_v30, Cert.KernelIdeal.KAdj.matK_apply _ _ r5 r6]
    unfold Cert.KernelIdeal.KAdj.ext
    rfl
  rw [hM]

/-- At the ideal values both programs run, keep their arguments, and end with the same result array. -/
theorem algebraic : Cert.algebraic_KernelIdeal_ReferenceIdeal := by
  intro m ρ m' ρ' hpre hagree
  refine ⟨fun c => (Cert.KernelIdeal.Gen.dats m 0 c).arrAt 6 Cert.KernelIdeal.cfg0.N,
    Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  exact result_eq m m' hpre c h0 h1 h2 h3 h4 h5 h6

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
